-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S8x768 : Shape := ⟨2, ![8, 768]⟩
abbrev S16x192 : Shape := ⟨2, ![16, 192]⟩
abbrev S768x960 : Shape := ⟨2, ![768, 960]⟩
abbrev S768 : Shape := ⟨1, ![768]⟩
abbrev S_ : Shape := ⟨0, ![]⟩

class Facts : Prop where
  bcast_S_S8x768 : S_.BroadcastsInDim S8x768 (![] : Fin 0 → Fin S8x768.rank)
  reducesTo_S8x768_S_d0_1 : S8x768.ReducesTo [0, 1] S_
  h_S_ : 0 < S_.numel
  bcast_S_S16x192 : S_.BroadcastsInDim S16x192 (![] : Fin 0 → Fin S16x192.rank)
  reducesTo_S16x192_S_d0_1 : S16x192.ReducesTo [0, 1] S_
  bcast_S_S768x960 : S_.BroadcastsInDim S768x960 (![] : Fin 0 → Fin S768x960.rank)
  reducesTo_S768x960_S_d0_1 : S768x960.ReducesTo [0, 1] S_
  bcast_S_S768 : S_.BroadcastsInDim S768 (![] : Fin 0 → Fin S768.rank)
  reducesTo_S768_S_d0 : S768.ReducesTo [0] S_
  bcast_S_S32x2048 : S_.BroadcastsInDim S32x2048 (![] : Fin 0 → Fin S32x2048.rank)
  reducesTo_S32x2048_S_d0_1 : S32x2048.ReducesTo [0, 1] S_

variable [Facts]

def fn_part2 {F : FTy → Type} [FloatOps F] (main_v28 : IVec S_ 1) (main_v33 : IVec S32x2048 1) : IVec S_ 1 :=
  let main_c_12 : IVec S_ 1 := constantI S_ 1 1#1
  let main_v34 : IVec S_ 1 := (fun x v => Host.reduce IntOp.andi x v reducesTo_S32x2048_S_d0_1 h_S_) main_v33 main_c_12
  let main_v35 : IVec S_ 1 := andi main_v28 main_v34
  main_v35

def fn_part1 {F : FTy → Type} [FloatOps F] (main_arg0 : IVec S32x2048 32) (main_arg5 : FVec F S768 .f32) (main_arg6 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_c_10 : IVec S_ 32 := constantI S_ 32 0#32
  let main_v29 : IVec S32x2048 32 := broadcastInDim S32x2048 ![] bcast_S_S32x2048 main_c_10
  let main_v30 : IVec S32x2048 1 := cmpi .sge main_arg0 main_v29
  let main_c_11 : IVec S_ 32 := constantI S_ 32 8#32
  let main_v31 : IVec S32x2048 32 := broadcastInDim S32x2048 ![] bcast_S_S32x2048 main_c_11
  let main_v32 : IVec S32x2048 1 := cmpi .slt main_arg0 main_v31
  let main_v33 : IVec S32x2048 1 := andi main_v30 main_v32
  fn_part2 (F := F) main_v28 main_v33

def fn {F : FTy → Type} [FloatOps F] (main_arg0 : IVec S32x2048 32) (main_arg1 : FVec F S8x768 .f32) (main_arg2 : FVec F S16x192 .f32) (main_arg3 : FVec F S768x960 .f32) (main_arg4 : FVec F S768 .f32) (main_arg5 : FVec F S768 .f32) (main_arg6 : FVec F S768 .f32) : IVec S_ 1 :=
  let main_v0 : FVec F S8x768 .f32 := Host.absf main_arg1
  let main_cst : FVec F S_ .f32 := constant S_ .f32 0x7F800000#32
  let main_v1 : FVec F S8x768 .f32 := broadcastInDim S8x768 ![] bcast_S_S8x768 main_cst
  let main_v2 : IVec S8x768 1 := cmpf .olt main_v0 main_v1
  let main_c : IVec S_ 1 := constantI S_ 1 1#1
  let main_v3 : IVec S_ 1 := (fun x v => Host.reduce IntOp.andi x v reducesTo_S8x768_S_d0_1 h_S_) main_v2 main_c
  let main_v4 : FVec F S16x192 .f32 := Host.absf main_arg2
  let main_cst_0 : FVec F S_ .f32 := constant S_ .f32 0x7F800000#32
  let main_v5 : FVec F S16x192 .f32 := broadcastInDim S16x192 ![] bcast_S_S16x192 main_cst_0
  let main_v6 : IVec S16x192 1 := cmpf .olt main_v4 main_v5
  let main_c_1 : IVec S_ 1 := constantI S_ 1 1#1
  let main_v7 : IVec S_ 1 := (fun x v => Host.reduce IntOp.andi x v reducesTo_S16x192_S_d0_1 h_S_) main_v6 main_c_1
  let main_v8 : IVec S_ 1 := andi main_v3 main_v7
  let main_v9 : FVec F S768x960 .f32 := Host.absf main_arg3
  let main_cst_2 : FVec F S_ .f32 := constant S_ .f32 0x7F800000#32
  let main_v10 : FVec F S768x960 .f32 := broadcastInDim S768x960 ![] bcast_S_S768x960 main_cst_2
  let main_v11 : IVec S768x960 1 := cmpf .olt main_v9 main_v10
  let main_c_3 : IVec S_ 1 := constantI S_ 1 1#1
  let main_v12 : IVec S_ 1 := (fun x v => Host.reduce IntOp.andi x v reducesTo_S768x960_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg0 main_arg5 main_arg6 main_v13 main_v16
-- ==== Kernel.lean ====
abbrev S32x2048 : Shape := ⟨2, ![32, 2048]⟩
abbrev S8x768 : Shape := ⟨2, ![8, 768]⟩
abbrev S16x192 : Shape := ⟨2, ![16, 192]⟩
abbrev S768x960 : Shape := ⟨2, ![768, 960]⟩
abbrev S768 : Shape := ⟨1, ![768]⟩
abbrev S32x2047 : Shape := ⟨2, ![32, 2047]⟩
abbrev S_ : Shape := ⟨0, ![]⟩
abbrev S768x768 : Shape := ⟨2, ![768, 768]⟩
abbrev S768x192 : Shape := ⟨2, ![768, 192]⟩
abbrev S192x768 : Shape := ⟨2, ![192, 768]⟩
abbrev S16x768 : Shape := ⟨2, ![16, 768]⟩
abbrev S65536x1 : Shape := ⟨2, ![65536, 1]⟩
abbrev S65536x768 : Shape := ⟨2, ![65536, 768]⟩
abbrev S32x2048x768 : Shape := ⟨3, ![32, 2048, 768]⟩
abbrev S2048x1 : Shape := ⟨2, ![2048, 1]⟩
abbrev S2048x768 : Shape := ⟨2, ![2048, 768]⟩
abbrev S1x8 : Shape := ⟨2, ![1, 8]⟩
abbrev S2048x8 : Shape := ⟨2, ![2048, 8]⟩
abbrev S1x16 : Shape := ⟨2, ![1, 16]⟩
abbrev S2048x16 : Shape := ⟨2, ![2048, 16]⟩
abbrev S1x768 : Shape := ⟨2, ![1, 768]⟩
abbrev S2048 : Shape := ⟨1, ![2048]⟩

abbrev nBuf : Space → Nat
  | .hbm => 51
  | .vmem => 11
  | .smem => 0
  | _ => 0

abbrev bufTy : (tb : Table) → Fin (tcTables nBuf tb) → BufTy
  | .hbm, ⟨0, _⟩ => ⟨S32x2048, .i32⟩
  | .hbm, ⟨1, _⟩ => ⟨S8x768, .f32⟩
  | .hbm, ⟨2, _⟩ => ⟨S16x192, .f32⟩
  | .hbm, ⟨3, _⟩ => ⟨S768x960, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S32x2047, .i32⟩
  | .hbm, ⟨8, _⟩ => ⟨S32x2047, .i32⟩
  | .hbm, ⟨9, _⟩ => ⟨S_, .i32⟩
  | .hbm, ⟨10, _⟩ => ⟨S32x2047, .i32⟩
  | .hbm, ⟨11, _⟩ => ⟨S32x2047, .i1⟩
  | .hbm, ⟨12, _⟩ => ⟨S_, .i32⟩
  | .hbm, ⟨13, _⟩ => ⟨S32x2047, .i32⟩
  | .hbm, ⟨14, _⟩ => ⟨S32x2047, .i1⟩
  | .hbm, ⟨15, _⟩ => ⟨S32x2047, .i1⟩
  | .hbm, ⟨16, _⟩ => ⟨S_, .i32⟩
  | .hbm, ⟨17, _⟩ => ⟨S32x2047, .i32⟩
  | .hbm, ⟨18, _⟩ => ⟨S32x2047, .i1⟩
  | .hbm, ⟨19, _⟩ => ⟨S32x2047, .i1⟩
  | .hbm, ⟨20, _⟩ => ⟨S_, .i32⟩
  | .hbm, ⟨21, _⟩ => ⟨S32x2047, .i32⟩
  | .hbm, ⟨22, _⟩ => ⟨S32x2047, .i1⟩
  | .hbm, ⟨23, _⟩ => ⟨S32x2047, .i1⟩
  | .hbm, ⟨24, _⟩ => ⟨S_, .i32⟩
  | .hbm, ⟨25, _⟩ => ⟨S32x2047, .i32⟩
  | .hbm, ⟨26, _⟩ => ⟨S32x2047, .i32⟩
  | .hbm, ⟨27, _⟩ => ⟨S_, .i32⟩
  | .hbm, ⟨28, _⟩ => ⟨S32x2047, .i32⟩
  | .hbm, ⟨29, _⟩ => ⟨S32x2047, .i32⟩
  | .hbm, ⟨30, _⟩ => ⟨S_, .i32⟩
  | .hbm, ⟨31, _⟩ => ⟨S32x2047, .i32⟩
  | .hbm, ⟨32, _⟩ => ⟨S32x2047, .i32⟩
  | .hbm, ⟨33, _⟩ => ⟨S32x2047, .i32⟩
  | .hbm, ⟨34, _⟩ => ⟨S_, .i32⟩
  | .hbm, ⟨35, _⟩ => ⟨S_, .i32⟩
  | .hbm, ⟨36, _⟩ => ⟨S32x2047, .i32⟩
  | .hbm, ⟨37, _⟩ => ⟨S32x2047, .i32⟩
  | .hbm, ⟨38, _⟩ => ⟨S_, .i32⟩
  | .hbm, ⟨39, _⟩ => ⟨S_, .i32⟩
  | .hbm, ⟨40, _⟩ => ⟨S32x2048, .i32⟩
  | .hbm, ⟨41, _⟩ => ⟨S768x768, .f32⟩
  | .hbm, ⟨42, _⟩ => ⟨S768x768, .f32⟩
  | .hbm, ⟨43, _⟩ => ⟨S768x192, .f32⟩
  | .hbm, ⟨44, _⟩ => ⟨S192x768, .f32⟩
  | .hbm, ⟨45, _⟩ => ⟨S8x768, .f32⟩
  | .hbm, ⟨46, _⟩ => ⟨S16x768, .f32⟩
  | .hbm, ⟨47, _⟩ => ⟨S65536x1, .i32⟩
  | .hbm, ⟨48, _⟩ => ⟨S65536x1, .i32⟩
  | .hbm, ⟨49, _⟩ => ⟨S65536x768, .f32⟩
  | .hbm, ⟨50, _⟩ => ⟨S32x2048x768, .f32⟩
  | .local _ .vmem, ⟨0, _⟩ => ⟨S2048x1, .i32⟩
  | .local _ .vmem, ⟨1, _⟩ => ⟨S2048x1, .i32⟩
  | .local _ .vmem, ⟨2, _⟩ => ⟨S2048x1, .i32⟩
  | .local _ .vmem, ⟨3, _⟩ => ⟨S2048x1, .i32⟩
  | .local _ .vmem, ⟨4, _⟩ => ⟨S8x768, .f32⟩
  | .local _ .vmem, ⟨5, _⟩ => ⟨S16x768, .f32⟩
  | .local _ .vmem, ⟨6, _⟩ => ⟨S768, .f32⟩
  | .local _ .vmem, ⟨7, _⟩ => ⟨S768, .f32⟩
  | .local _ .vmem, ⟨8, _⟩ => ⟨S768, .f32⟩
  | .local _ .vmem, ⟨9, _⟩ => ⟨S2048x768, .f32⟩
  | .local _ .vmem, ⟨10, _⟩ => ⟨S2048x768, .f32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_c : Ref sig .tc := ⟨.hbm, 9, rfl⟩
abbrev main_call0_v2 : Ref sig .tc := ⟨.hbm, 10, rfl⟩
abbrev main_call0_v3 : Ref sig .tc := ⟨.hbm, 11, rfl⟩
abbrev main_call0_c_0 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_c_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_c_2 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_c_3 : Ref sig .tc := ⟨.hbm, 24, rfl⟩
abbrev main_call0_v13 : Ref sig .tc := ⟨.hbm, 25, rfl⟩
abbrev main_call0_v14 : Ref sig .tc := ⟨.hbm, 26, rfl⟩
abbrev main_call0_c_4 : Ref sig .tc := ⟨.hbm, 27, rfl⟩
abbrev main_call0_v15 : Ref sig .tc := ⟨.hbm, 28, rfl⟩
abbrev main_call0_v16 : Ref sig .tc := ⟨.hbm, 29, rfl⟩
abbrev main_call0_c_5 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_c_6 : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_v20 : Ref sig .tc := ⟨.hbm, 37, rfl⟩
abbrev main_call0_c_7 : Ref sig .tc := ⟨.hbm, 38, rfl⟩
abbrev main_call0_call1_v0 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_v0 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S32x2048_S32x2047_0_0 : S32x2048.Slices ![0, 0] S32x2047
  slices_S32x2048_S32x2047_0_1 : S32x2048.Slices ![0, 1] S32x2047
  bcast_S_S32x2047 : S_.BroadcastsInDim S32x2047 (![] : Fin 0 → Fin S32x2047.rank)
  pads_S32x2047_S32x2048_000_010 : S32x2047.Pads (![0, 0] : Fin 2 → Nat) ![0, 1] ![0, 0] S32x2048
  h_S_ : 0 < S_.numel
  slices_S768x960_S768x768_0_0 : S768x960.Slices ![0, 0] S768x768
  transposes_S768x768_S768x768_1_0 : S768x768.Transposes [1, 0] S768x768
  slices_S768x960_S768x192_0_768 : S768x960.Slices ![0, 768] S768x192
  transposes_S768x192_S192x768_1_0 : S768x192.Transposes [1, 0] S192x768
  shapeCasts_S32x2048_S65536x1 : S32x2048.ShapeCasts S65536x1
  shapeCasts_S65536x768_S32x2048x768 : S65536x768.ShapeCasts S32x2048x768
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x8_d1_w32 : S1x8.Iotas .tc 32 [1]
  broadcasts_S2048x1_S2048x8 : S2048x1.Broadcasts S2048x8
  broadcasts_S1x8_S2048x8 : S1x8.Broadcasts S2048x8
  natLt_1_32 : 1 < 32
  bitsLt_bf16_f32 : FTy.bits .bf16 < FTy.bits .f32
  iota_S1x16_d1_w32 : S1x16.Iotas .tc 32 [1]
  broadcasts_S2048x1_S2048x16 : S2048x1.Broadcasts S2048x16
  broadcasts_S1x16_S2048x16 : S1x16.Broadcasts S2048x16
  inb_S8x768_S8x768_0_0 : ∀ a, (![0, 0] : Fin 2 → Nat) a + S8x768.size a ≤ S8x768.size a
  h_S8x768 : 0 < S8x768.numel
  shapeCasts_S8x768_S8x768 : S8x768.ShapeCasts S8x768
  inb_S16x768_S16x768_0_0 : ∀ a, (![0, 0] : Fin 2 → Nat) a + S16x768.size a ≤ S16x768.size a
  h_S16x768 : 0 < S16x768.numel
  shapeCasts_S16x768_S16x768 : S16x768.ShapeCasts S16x768
  inb_S768_S768_0 : ∀ a, (![0] : Fin 1 → Nat) a + S768.size a ≤ S768.size a
  h_S768 : 0 < S768.numel
  shapeCasts_S768_S1x768 : S768.ShapeCasts S1x768
  broadcasts_S1x768_S2048x768 : S1x768.Broadcasts S2048x768
  reduces_S2048x768_S2048 : S2048x768.Reduces [1] S2048
  shapeCasts_S2048_S2048x1 : S2048.ShapeCasts S2048x1
  broadcasts_S2048x1_S2048x768 : S2048x1.Broadcasts S2048x768
  inb_S2048x768_S2048x768_0_0 : ∀ a, (![0, 0] : Fin 2 → Nat) a + S2048x768.size a ≤ S2048x768.size a
  h_S2048x768 : 0 < S2048x768.numel
  dot_S8x768_S768x768_S8x768_1_0_0_1_n_n_wf : DotDims.WF S8x768 S768x768 S8x768 [1] [0] [0] [1] [] []
  dot_S16x192_S192x768_S16x768_1_0_0_1_n_n_wf : DotDims.WF S16x192 S192x768 S16x768 [1] [0] [0] [1] [] []
  dot_S2048x8_S8x768_S2048x768_1_0_0_1_n_n_wf : DotDims.WF S2048x8 S8x768 S2048x768 [1] [0] [0] [1] [] []
  dot_S2048x16_S16x768_S2048x768_1_0_0_1_n_n_wf : DotDims.WF S2048x16 S16x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S65536x1.size a
  hwx0_0 : ∀ i : grid0.Coords, EltTy.bits .i32 = 32 ∨ (Rect.block (s := S65536x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x768.size a ≤ S8x768.size a
  hwx0_2 : ∀ i : grid0.Coords, EltTy.bits .f32 = 32 ∨ (Rect.block (s := S8x768) S8x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x768.size a ≤ S16x768.size a
  hwx0_3 : ∀ i : grid0.Coords, EltTy.bits .f32 = 32 ∨ (Rect.block (s := S16x768) S16x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x768.size a ≤ S65536x768.size a
  hwx0_7 : ∀ i : grid0.Coords, EltTy.bits .f32 = 32 ∨ (Rect.block (s := S65536x768) S2048x768.size (cc0_transform_7 i) (hinb0_7 i)).WholeWords (EltTy.packing .f32)

variable [Facts₀]

def dot_S8x768_S768x768_S8x768_1_0_0_1_n_n : DotDims S8x768 S768x768 S8x768 where
  lhsContracting := [1]
  rhsContracting := [0]
  lhsNonContracting := [0]
  rhsNonContracting := [1]
  lhsBatch := []
  rhsBatch := []
  wf := dot_S8x768_S768x768_S8x768_1_0_0_1_n_n_wf
def dot_S16x192_S192x768_S16x768_1_0_0_1_n_n : DotDims S16x192 S192x768 S16x768 where
  lhsContracting := [1]
  rhsContracting := [0]
  lhsNonContracting := [0]
  rhsNonContracting := [1]
  lhsBatch := []
  rhsBatch := []
  wf := dot_S16x192_S192x768_S16x768_1_0_0_1_n_n_wf
def dot_S2048x8_S8x768_S2048x768_1_0_0_1_n_n : DotDims S2048x8 S8x768 S2048x768 where
  lhsContracting := [1]
  rhsContracting := [0]
  lhsNonContracting := [0]
  rhsNonContracting := [1]
  lhsBatch := []
  rhsBatch := []
  wf := dot_S2048x8_S8x768_S2048x768_1_0_0_1_n_n_wf
def dot_S2048x16_S16x768_S2048x768_1_0_0_1_n_n : DotDims S2048x16 S16x768 S2048x768 where
  lhsContracting := [1]
  rhsContracting := [0]
  lhsNonContracting := [0]
  rhsNonContracting := [1]
  lhsBatch := []
  rhsBatch := []
  wf := dot_S2048x16_S16x768_S2048x768_1_0_0_1_n_n_wf

abbrev win0_0 : Pipeline.Window sig grid0 :=
  Pipeline.Window.ofSpec (Memref.whole main_call0_v28) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v29) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v26) S8x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v27) S16x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v30) S2048x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x2048 : Shape := ⟨2, ![32, 2048]⟩
abbrev S8x768 : Shape := ⟨2, ![8, 768]⟩
abbrev S16x192 : Shape := ⟨2, ![16, 192]⟩
abbrev S768x960 : Shape := ⟨2, ![768, 960]⟩
abbrev S768 : Shape := ⟨1, ![768]⟩
abbrev S_ : Shape := ⟨0, ![]⟩
abbrev S32x2048x1 : Shape := ⟨3, ![32, 2048, 1]⟩
abbrev S32x2048x768 : Shape := ⟨3, ![32, 2048, 768]⟩
abbrev S32x2047 : Shape := ⟨2, ![32, 2047]⟩
abbrev S32x2047x1 : Shape := ⟨3, ![32, 2047, 1]⟩
abbrev S32x2047x192 : Shape := ⟨3, ![32, 2047, 192]⟩
abbrev S32x2048x192 : Shape := ⟨3, ![32, 2048, 192]⟩
abbrev S32x2048x960 : Shape := ⟨3, ![32, 2048, 960]⟩
abbrev S1x1x768 : Shape := ⟨3, ![1, 1, 768]⟩

abbrev nBuf : Space → Nat
  | .hbm => 93
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S8x768, .f32⟩
  | .hbm, ⟨2, _⟩ => ⟨S16x192, .f32⟩
  | .hbm, ⟨3, _⟩ => ⟨S768x960, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S_, .i32⟩
  | .hbm, ⟨8, _⟩ => ⟨S32x2048, .i32⟩
  | .hbm, ⟨9, _⟩ => ⟨S32x2048, .i1⟩
  | .hbm, ⟨10, _⟩ => ⟨S_, .i32⟩
  | .hbm, ⟨11, _⟩ => ⟨S32x2048, .i32⟩
  | .hbm, ⟨12, _⟩ => ⟨S32x2048, .i32⟩
  | .hbm, ⟨13, _⟩ => ⟨S32x2048, .i32⟩
  | .hbm, ⟨14, _⟩ => ⟨S32x2048x1, .i32⟩
  | .hbm, ⟨15, _⟩ => ⟨S32x2048x768, .f32⟩
  | .hbm, ⟨16, _⟩ => ⟨S32x2047, .i32⟩
  | .hbm, ⟨17, _⟩ => ⟨S32x2047, .i32⟩
  | .hbm, ⟨18, _⟩ => ⟨S_, .i32⟩
  | .hbm, ⟨19, _⟩ => ⟨S32x2047, .i32⟩
  | .hbm, ⟨20, _⟩ => ⟨S32x2047, .i1⟩
  | .hbm, ⟨21, _⟩ => ⟨S_, .i32⟩
  | .hbm, ⟨22, _⟩ => ⟨S32x2047, .i32⟩
  | .hbm, ⟨23, _⟩ => ⟨S32x2047, .i1⟩
  | .hbm, ⟨24, _⟩ => ⟨S32x2047, .i1⟩
  | .hbm, ⟨25, _⟩ => ⟨S_, .i32⟩
  | .hbm, ⟨26, _⟩ => ⟨S32x2047, .i32⟩
  | .hbm, ⟨27, _⟩ => ⟨S32x2047, .i1⟩
  | .hbm, ⟨28, _⟩ => ⟨S32x2047, .i1⟩
  | .hbm, ⟨29, _⟩ => ⟨S_, .i32⟩
  | .hbm, ⟨30, _⟩ => ⟨S32x2047, .i32⟩
  | .hbm, ⟨31, _⟩ => ⟨S32x2047, .i1⟩
  | .hbm, ⟨32, _⟩ => ⟨S32x2047, .i1⟩
  | .hbm, ⟨33, _⟩ => ⟨S_, .i32⟩
  | .hbm, ⟨34, _⟩ => ⟨S32x2047, .i32⟩
  | .hbm, ⟨35, _⟩ => ⟨S32x2047, .i32⟩
  | .hbm, ⟨36, _⟩ => ⟨S_, .i32⟩
  | .hbm, ⟨37, _⟩ => ⟨S32x2047, .i32⟩
  | .hbm, ⟨38, _⟩ => ⟨S32x2047, .i32⟩
  | .hbm, ⟨39, _⟩ => ⟨S_, .i32⟩
  | .hbm, ⟨40, _⟩ => ⟨S32x2047, .i32⟩
  | .hbm, ⟨41, _⟩ => ⟨S32x2047, .i32⟩
  | .hbm, ⟨42, _⟩ => ⟨S32x2047, .i32⟩
  | .hbm, ⟨43, _⟩ => ⟨S_, .i32⟩
  | .hbm, ⟨44, _⟩ => ⟨S_, .i32⟩
  | .hbm, ⟨45, _⟩ => ⟨S32x2047, .i32⟩
  | .hbm, ⟨46, _⟩ => ⟨S32x2047, .i32⟩
  | .hbm, ⟨47, _⟩ => ⟨S_, .i32⟩
  | .hbm, ⟨48, _⟩ => ⟨S32x2047, .i32⟩
  | .hbm, ⟨49, _⟩ => ⟨S32x2047, .i1⟩
  | .hbm, ⟨50, _⟩ => ⟨S_, .i32⟩
  | .hbm, ⟨51, _⟩ => ⟨S32x2047, .i32⟩
  | .hbm, ⟨52, _⟩ => ⟨S32x2047, .i32⟩
  | .hbm, ⟨53, _⟩ => ⟨S32x2047, .i32⟩
  | .hbm, ⟨54, _⟩ => ⟨S32x2047x1, .i32⟩
  | .hbm, ⟨55, _⟩ => ⟨S32x2047x192, .f32⟩
  | .hbm, ⟨56, _⟩ => ⟨S_, .i32⟩
  | .hbm, ⟨57, _⟩ => ⟨S_, .f32⟩
  | .hbm, ⟨58, _⟩ => ⟨S32x2048x192, .f32⟩
  | .hbm, ⟨59, _⟩ => ⟨S32x2048x960, .f32⟩
  | .hbm, ⟨60, _⟩ => ⟨S32x2048x768, .f32⟩
  | .hbm, ⟨61, _⟩ => ⟨S1x1x768, .f32⟩
  | .hbm, ⟨62, _⟩ => ⟨S32x2048x768, .f32⟩
  | .hbm, ⟨63, _⟩ => ⟨S32x2048x768, .f32⟩
  | .hbm, ⟨64, _⟩ => ⟨S_, .f32⟩
  | .hbm, ⟨65, _⟩ => ⟨S32x2048, .f32⟩
  | .hbm, ⟨66, _⟩ => ⟨S32x2048x1, .f32⟩
  | .hbm, ⟨67, _⟩ => ⟨S_, .f32⟩
  | .hbm, ⟨68, _⟩ => ⟨S32x2048x1, .f32⟩
  | .hbm, ⟨69, _⟩ => ⟨S32x2048x1, .f32⟩
  | .hbm, ⟨70, _⟩ => ⟨S32x2048x768, .f32⟩
  | .hbm, ⟨71, _⟩ => ⟨S32x2048x768, .f32⟩
  | .hbm, ⟨72, _⟩ => ⟨S32x2048x768, .f32⟩
  | .hbm, ⟨73, _⟩ => ⟨S_, .f32⟩
  | .hbm, ⟨74, _⟩ => ⟨S32x2048, .f32⟩
  | .hbm, ⟨75, _⟩ => ⟨S32x2048x1, .f32⟩
  | .hbm, ⟨76, _⟩ => ⟨S_, .f32⟩
  | .hbm, ⟨77, _⟩ => ⟨S32x2048x1, .f32⟩
  | .hbm, ⟨78, _⟩ => ⟨S32x2048x1, .f32⟩
  | .hbm, ⟨79, _⟩ => ⟨S32x2048x768, .f32⟩
  | .hbm, ⟨80, _⟩ => ⟨S32x2048x768, .f32⟩
  | .hbm, ⟨81, _⟩ => ⟨S_, .f32⟩
  | .hbm, ⟨82, _⟩ => ⟨S32x2048x1, .f32⟩
  | .hbm, ⟨83, _⟩ => ⟨S32x2048x1, .f32⟩
  | .hbm, ⟨84, _⟩ => ⟨S32x2048x1, .f32⟩
  | .hbm, ⟨85, _⟩ => ⟨S32x2048x768, .f32⟩
  | .hbm, ⟨86, _⟩ => ⟨S32x2048x768, .f32⟩
  | .hbm, ⟨87, _⟩ => ⟨S1x1x768, .f32⟩
  | .hbm, ⟨88, _⟩ => ⟨S32x2048x768, .f32⟩
  | .hbm, ⟨89, _⟩ => ⟨S32x2048x768, .f32⟩
  | .hbm, ⟨90, _⟩ => ⟨S1x1x768, .f32⟩
  | .hbm, ⟨91, _⟩ => ⟨S32x2048x768, .f32⟩
  | .hbm, ⟨92, _⟩ => ⟨S32x2048x768, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_8 : Ref sig .tc := ⟨.hbm, 43, rfl⟩
abbrev main_call0_v0 : Ref sig .tc := ⟨.hbm, 44, rfl⟩
abbrev main_call0_v1 : Ref sig .tc := ⟨.hbm, 45, rfl⟩
abbrev main_v27 : Ref sig .tc := ⟨.hbm, 46, rfl⟩
abbrev main_c_9 : Ref sig .tc := ⟨.hbm, 47, rfl⟩
abbrev main_v28 : Ref sig .tc := ⟨.hbm, 48, rfl⟩
abbrev main_v29 : Ref sig .tc := ⟨.hbm, 49, rfl⟩
abbrev main_c_10 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_11 : Ref sig .tc := ⟨.hbm, 56, rfl⟩
abbrev main_call1_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst : Ref sig .tc := ⟨.hbm, 64, rfl⟩
abbrev main_v41 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_cst_14 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_15 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  slices_S32x2048_S32x2047_0_0 : S32x2048.Slices ![0, 0] S32x2047
  slices_S32x2048_S32x2047_0_1 : S32x2048.Slices ![0, 1] S32x2047
  bcast_S_S32x2047 : S_.BroadcastsInDim S32x2047 (![] : Fin 0 → Fin S32x2047.rank)
  bcast_S32x2047_S32x2047x1_0_1 : S32x2047.BroadcastsInDim S32x2047x1 (![0, 1] : Fin 2 → Fin S32x2047x1.rank)
  pads_S32x2047x192_S32x2048x192_000_010_000 : S32x2047x192.Pads (![0, 0, 0] : Fin 3 → Nat) ![0, 1, 0] ![0, 0, 0] S32x2048x192
  h_S_ : 0 < S_.numel
  concatenates_S32x2048x768_S32x2048x192_S32x2048x960_d2 : Shape.Concatenates [S32x2048x768, S32x2048x192] S32x2048x960 2
  bcast_S768_S1x1x768_2 : S768.BroadcastsInDim S1x1x768 (![2] : Fin 1 → Fin S1x1x768.rank)
  bcast_S1x1x768_S32x2048x768_0_1_2 : S1x1x768.BroadcastsInDim S32x2048x768 (![0, 1, 2] : Fin 3 → Fin S32x2048x768.rank)
  reducesTo_S32x2048x768_S32x2048_d2 : S32x2048x768.ReducesTo [2] S32x2048
  bcast_S_S32x2048x1 : S_.BroadcastsInDim S32x2048x1 (![] : Fin 0 → Fin S32x2048x1.rank)
  bcast_S32x2048x1_S32x2048x768_0_1_2 : S32x2048x1.BroadcastsInDim S32x2048x768 (![0, 1, 2] : Fin 3 → Fin S32x2048x768.rank)
  gather_S8x768_S32x2048x1_S32x2048x768_2_0_n_n_0_2_1768_wf : GatherDims.WF S8x768 S32x2048x1 S32x2048x768 [2] [0] [] [0] [] 2 ![1, 768]
  gather_S16x192_S32x2047x1_S32x2047x192_2_0_n_n_0_2_1192_wf : GatherDims.WF S16x192 S32x2047x1 S32x2047x192 [2] [0] [] [0] [] 2 ![1, 192]
  dot_S32x2048x960_S768x960_S32x2048x768_2_1_01_0_n_n_wf : DotDims.WF S32x2048x960 S768x960 S32x2048x768 [2] [1] [0, 1] [0] [] []

variable [Facts₀]

def gather_S8x768_S32x2048x1_S32x2048x768_2_0_n_n_0_2_1768 : GatherDims S8x768 S32x2048x1 S32x2048x768 where
  offsetDims := [2]
  collapsedSliceDims := [0]
  operandBatchingDims := []
  startIndicesBatchingDims := []
  startIndexMap := [0]
  indexVectorDim := 2
  sliceSizes := ![1, 768]
  wf := gather_S8x768_S32x2048x1_S32x2048x768_2_0_n_n_0_2_1768_wf
def gather_S16x192_S32x2047x1_S32x2047x192_2_0_n_n_0_2_1192 : GatherDims S16x192 S32x2047x1 S32x2047x192 where
  offsetDims := [2]
  collapsedSliceDims := [0]
  operandBatchingDims := []
  startIndicesBatchingDims := []
  startIndexMap := [0]
  indexVectorDim := 2
  sliceSizes := ![1, 192]
  wf := gather_S16x192_S32x2047x1_S32x2047x192_2_0_n_n_0_2_1192_wf
def dot_S32x2048x960_S768x960_S32x2048x768_2_1_01_0_n_n : DotDims S32x2048x960 S768x960 S32x2048x768 where
  lhsContracting := [2]
  rhsContracting := [1]
  lhsNonContracting := [0, 1]
  rhsNonContracting := [0]
  lhsBatch := []
  rhsBatch := []
  wf := dot_S32x2048x960_S768x960_S32x2048x768_2_1_01_0_n_n_wf

class Facts : Prop extends Facts₀ where

variable [Facts]
-- ==== Proof.Spec.lean ====
/-
  The token-plus-dinucleotide embedding, projected and layer-normalised, written as plain functions of the argument
  arrays over the extended reals.

  A position (b, s) of the [32, 2048] id array carries a token word and, for s < 2047, a dinucleotide word made from
  the token words at s and s + 1 (both tokens in 4..7: class 4·(a − 4) + (b − 4); otherwise class 0); the last
  position of a row has no right neighbour.  The pre-activation row of a position is

      x o = Σ_i tok_emb[token, i] · W[o, i]  +  Σ_j din_emb[class, j] · W[o, 768 + j]  +  bias o

  (the second sum absent at the last position), and the result is its layer normalisation over the 768 outputs,
  scaled by gamma and shifted by beta.  Two spellings of each half are defined here: the one that selects a table row
  by a one-hot weight and normalises by the reciprocal square root, and the one that reads a table row at a clamped
  index, contracts the concatenated 960 features in one sum and normalises by a quotient by the square root.
-/
import Idealize.ShloMosaic.PureOps.Ideal
import Idealize.ShloMosaic.PureOps.Ideal.Laws
import Idealize.ShloMosaic.Lib.ValueIdx
import Mathlib.Data.EReal.Operations

noncomputable section

namespace Cert.Spec

open Idealize.ShloMosaic
open scoped BigOperators

/-! ## Layer normalisation of one row of 768 extended reals -/

/-- The divisor of both means: the single-precision pattern of 768. -/
def c768 : EReal := Ideal.ofBits .f32 0x44400000#32
/-- The offset added to the variance: the single-precision pattern nearest to 1e-12. -/
def ceps : EReal := Ideal.ofBits .f32 0x2B8CBCCC#32

/-- The mean of a row: its sum divided by 768. -/
def mean (f : Fin 768 → EReal) : EReal := Ideal.div (∑ k : Fin 768, f k) c768
/-- A row entry minus the row's mean. -/
def cen (x : Fin 768 → EReal) (o : Fin 768) : EReal := x o - mean x
/-- The mean of the squared centred entries. -/
def var (x : Fin 768 → EReal) : EReal := mean (fun k => cen x k * cen x k)
/-- Normalisation by the reciprocal square root, the scale folded into it: xc · (rsqrt(var + eps) · gamma) + beta. -/
def lnK (x g bt : Fin 768 → EReal) (o : Fin 768) : EReal :=
  cen x o * (Ideal.rsqrt (var x + ceps) * g o) + bt o
/-- Normalisation by a quotient: (xc / sqrt(var + eps)) · gamma + beta. -/
def lnR (x g bt : Fin 768 → EReal) (o : Fin 768) : EReal :=
  Ideal.div (cen x o) (Ideal.sqrt (var x + ceps)) * g o + bt o

/-! ## The dinucleotide word -/

/-- The dinucleotide class of two neighbouring token words a, b: 4·(a − 4) + (b − 4) when both lie in 4..7, else 0. -/
def dinucWord (a b : BitVec 32) : BitVec 32 :=
  Scalar.select
    (IntOp.andi (IntOp.andi (IntOp.andi (IntOp.cmpi .sge a 4#32) (IntOp.cmpi .sle a 7#32)) (IntOp.cmpi .sge b 4#32))
      (IntOp.cmpi .sle b 7#32))
    (IntOp.addi (IntOp.muli (IntOp.subi a 4#32) 4#32) (IntOp.subi b 4#32))
    0#32

/-- The dinucleotide word of position (b, s) padded to the full row length: the class of the tokens at s and s + 1,
    and the word −1 (no class) at the last position. -/
def dword (ids : Fin 32 → Fin 2048 → BitVec 32) (b : Fin 32) (s : Fin 2048) : BitVec 32 :=
  if h : s.val < 2047 then dinucWord (ids b ⟨s.val, by omega⟩) (ids b ⟨s.val + 1, by omega⟩) else 4294967295#32

/-! ## The pre-activation row, by one-hot selection of projected tables -/

/-- The one-hot weight of a word against class number k: 1 when the word is k, else 0, as a real. -/
def oh (w : BitVec 32) (k : Nat) : EReal :=
  (((BitVec.setWidth 32 (IntOp.cmpi .eq w (BitVec.ofNat 32 k))).toInt : ℝ) : EReal)

/-- The token table projected by the first 768 input columns of W: Σ_i tok[v, i] · W[o, i]. -/
def tokP (temb : Fin 8 → Fin 768 → EReal) (W : Fin 768 → Fin 960 → EReal) (v : Fin 8) (o : Fin 768) : EReal :=
  ∑ i : Fin 768, temb v i * W o ⟨i.val, by have := i.isLt; omega⟩
/-- The dinucleotide table projected by the last 192 input columns of W: Σ_j din[d, j] · W[o, 768 + j]. -/
def dinQ (demb : Fin 16 → Fin 192 → EReal) (W : Fin 768 → Fin 960 → EReal) (d : Fin 16) (o : Fin 768) : EReal :=
  ∑ j : Fin 192, demb d j * W o ⟨768 + j.val, by have := j.isLt; omega⟩
/-- The row selected from two projected tables P, Q by one-hot weights of a token word and a dinucleotide word. -/
def xK (iw dw : BitVec 32) (P : Fin 8 → Fin 768 → EReal) (Q : Fin 16 → Fin 768 → EReal) (bias : Fin 768 → EReal)
    (o : Fin 768) : EReal :=
  (∑ v : Fin 8, oh iw v.val * P v o + ∑ d : Fin 16, oh dw d.val * Q d o) + bias o

/-! ## The pre-activation row, by row reads and one contraction over the 960 concatenated features -/

/-- A negative index word counts from the end: a + N when a < 0, else a. -/
def wrapW (N a : BitVec 32) : BitVec 32 := Scalar.select (IntOp.cmpi .slt a 0#32) (IntOp.addi a N) a
/-- The row of an N-row table a start word names: its signed value clamped into [0, N − 1]. -/
def rowOf (N : Nat) (hN : 0 < N) (a : BitVec 32) : Fin N := ⟨min a.toInt.toNat (N - 1), by omega⟩
/-- The 960 concatenated features of position (b, s): the token's table row, then the dinucleotide class's table row
    (zeros at the last position of a row). -/
def refCat (ids : Fin 32 → Fin 2048 → BitVec 32) (temb : Fin 8 → Fin 768 → EReal) (demb : Fin 16 → Fin 192 → EReal)
    (b : Fin 32) (s : Fin 2048) (k : Fin 960) : EReal :=
  if hk : k.val < 768 then temb (rowOf 8 (by decide) (wrapW 8#32 (ids b s))) ⟨k.val, hk⟩
  else if hs : s.val < 2047 then
    demb (rowOf 16 (by decide) (wrapW 16#32 (dinucWord (ids b ⟨s.val, by omega⟩) (ids b ⟨s.val + 1, by omega⟩))))
      ⟨k.val - 768, by have := k.isLt; omega⟩
  else 0
/-- The features contracted against W's input axis, plus the bias. -/
def xR (cat : Fin 960 → EReal) (W : Fin 768 → Fin 960 → EReal) (bias : Fin 768 → EReal) (o : Fin 768) : EReal :=
  (∑ k : Fin 960, cat k * W o k) + bias o

/-! ## The whole result -/

/-- The result array [32, 2048, 768], in the one-hot, reciprocal-square-root spelling. -/
def G (ids : Fin 32 → Fin 2048 → BitVec 32) (temb : Fin 8 → Fin 768 → EReal) (demb : Fin 16 → Fin 192 → EReal)
    (W : Fin 768 → Fin 960 → EReal) (bias g bt : Fin 768 → EReal) : (⟨3, ![32, 2048, 768]⟩ : Shape).Idx → EReal :=
  fun j => lnK (xK (ids (j 0) (j 1)) (dword ids (j 0) (j 1)) (tokP temb W) (dinQ demb W) bias) g bt (j 2)

end Cert.Spec

end
-- ==== Proof.Algebra.lean ====
/-
  The algebra that joins the two spellings of the layer-normalised embedding.

  * On a row of real numbers the mean, the centred entries and the variance are real, the variance is non-negative and
    the offset is positive, so the square root of (variance + offset) is a positive real: there the quotient by it is
    the product with its reciprocal, which is the reciprocal square root; associativity of the product moves the scale.
  * A word that is one of 0..7 (0..15) has one-hot weight 1 against its own class and 0 against every other, so the
    weighted sum over the classes of a projected table is the table's row of that class; the word −1 has weight 0
    against every class.  Such a word is its own wrap and its own clamp, so the row read by index is the same row.
  * The sum over the 960 concatenated features splits into the 768 token features and the 192 dinucleotide features.
-/
import proofs.«410812_j5111011082276_2_alg».proof.Proof.Spec

noncomputable section

namespace Cert.Spec

open Idealize.ShloMosaic
open scoped BigOperators

/-! ## Real rows -/

/-- An extended real that is a real number. -/
def IsReal (x : EReal) : Prop := ∃ r : ℝ, x = (r : EReal)

theorem IsReal.zero : IsReal 0 := ⟨0, EReal.coe_zero.symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two constants -/

/-- The divisor's pattern denotes 768. -/
theorem c768_eq : c768 = ((768 : ℝ) : EReal) := by
  unfold c768
  simp [Ideal.ofBits, Ideal.ieee, -EReal.coe_mul]; norm_num

/-- The offset's pattern denotes a positive real. -/
theorem ceps_pos : ∃ e : ℝ, 0 < e ∧ ceps = (e : EReal) := by
  refine ⟨(9223372 : ℝ) * (2 : ℝ) ^ (-63 : ℤ), by positivity, ?_⟩
  unfold ceps
  simp [Ideal.ofBits, Ideal.ieee, -EReal.coe_mul]

/-! ## Layer normalisation of a real row -/

/-- The mean of a real row is the real mean. -/
theorem mean_coe (f : Fin 768 → ℝ) : mean (fun k => (f k : EReal)) = (((∑ k, f k) / 768 : ℝ) : EReal) := by
  unfold mean
  rw [← coe_sum, c768_eq, Ideal.div_coe (by norm_num : (768 : ℝ) ≠ 0), ← EReal.coe_mul]
  congr 1; ring

/-- On a real row the two normalisations agree: the square root of (variance + offset) is a positive real, the
    quotient by it is the product with its reciprocal, and the product is associative. -/
theorem lnK_eq_lnR (x g bt : Fin 768 → EReal) (hx : ∀ k, IsReal (x k)) (o : Fin 768) : lnK x g bt o = lnR x g bt o := by
  choose xr hxr using hx
  obtain rfl : x = fun k => (xr k : EReal) := funext hxr
  obtain ⟨e, he0, he⟩ := ceps_pos
  obtain ⟨μ, hμ⟩ : ∃ μ : ℝ, mean (fun k => (xr k : EReal)) = (μ : EReal) := ⟨_, mean_coe _⟩
  have hcen : ∀ k, cen (fun k => (xr k : EReal)) k = ((xr k - μ : ℝ) : EReal) := by
    intro k
    show (xr k : EReal) - mean (fun k => (xr k : EReal)) = _
    rw [hμ]; exact (EReal.coe_sub _ _).symm
  obtain ⟨v, hv0, hvar⟩ : ∃ v : ℝ, 0 ≤ v ∧ var (fun k => (xr k : EReal)) = (v : EReal) := by
    refine ⟨(∑ k, (xr k - μ) * (xr k - μ)) / 768, div_nonneg (Finset.sum_nonneg fun k _ => mul_self_nonneg _) (by norm_num), ?_⟩
    have hsq : (fun k => cen (fun k => (xr k : EReal)) k * cen (fun k => (xr k : EReal)) k)
        = fun k => (((xr k - μ) * (xr k - μ) : ℝ) : EReal) := by
      funext k; rw [hcen, EReal.coe_mul]
    show mean (fun k => cen (fun k => (xr k : EReal)) k * cen (fun k => (xr k : EReal)) k) = _
    rw [hsq, mean_coe]
  have hpos : 0 < v + e := by linarith
  have hne : Real.sqrt (v + e) ≠ 0 := (Real.sqrt_pos.mpr hpos).ne'
  show cen _ o * (Ideal.rsqrt (var _ + ceps) * g o) + bt o = Ideal.div (cen _ o) (Ideal.sqrt (var _ + ceps)) * g o + bt o
  rw [hcen, hvar, he, ← EReal.coe_add]
  simp only [Ideal.rsqrt_coe, Ideal.sqrt_coe, if_neg (not_lt.mpr hpos.le), if_neg hpos.ne']
  rw [Ideal.div_coe hne, one_div, mul_assoc]

/-! ## One-hot weights of in-range words -/

/-- The widened equality bit of two class numbers below 16. -/
theorem eqBit_ofNat : ∀ t v : Fin 16,
    BitVec.setWidth 32 (IntOp.cmpi .eq (BitVec.ofNat 32 t.val) (BitVec.ofNat 32 v.val)) = if t = v then 1#32 else 0#32 := by
  decide

/-- The word −1 equals no class number below 16. -/
theorem eqBit_neg1 : ∀ v : Fin 16,
    BitVec.setWidth 32 (IntOp.cmpi .eq 4294967295#32 (BitVec.ofNat 32 v.val)) = 0#32 := by
  decide

/-- The one-hot weight of class word t against class v: 1 at t, 0 elsewhere. -/
theorem oh_ofNat (t v : Fin 16) : oh (BitVec.ofNat 32 t.val) v.val = if t = v then 1 else 0 := by
  unfold oh
  rw [eqBit_ofNat t v]
  split_ifs <;> simp

/-- The word −1 has weight 0 against every class. -/
theorem oh_neg1 (v : Fin 16) : oh 4294967295#32 v.val = 0 := by
  unfold oh
  rw [eqBit_neg1 v]
  simp

/-- Eight one-hot weights of a token word select that token's row. -/
theorem oh_sum8 (t : Fin 8) (f : Fin 8 → EReal) : ∑ v : Fin 8, oh (BitVec.ofNat 32 t.val) v.val * f v = f t := by
  have h : ∀ v : Fin 8, oh (BitVec.ofNat 32 t.val) v.val = if t = v then 1 else 0 := fun v => by
    have := oh_ofNat ⟨t.val, by have := t.isLt; omega⟩ ⟨v.val, by have := v.isLt; omega⟩
    simpa [Fin.ext_iff] using this
  simp only [h, ite_mul, one_mul, zero_mul, Finset.sum_ite_eq, Finset.mem_univ, if_true]

/-- Sixteen one-hot weights of a dinucleotide word select that class's row. -/
theorem oh_sum16 (d : Fin 16) (f : Fin 16 → EReal) : ∑ v : Fin 16, oh (BitVec.ofNat 32 d.val) v.val * f v = f d := by
  simp only [oh_ofNat, ite_mul, one_mul, zero_mul, Finset.sum_ite_eq, Finset.mem_univ, if_true]

/-- The word −1 selects nothing. -/
theorem oh_sum_neg1 (f : Fin 16 → EReal) : ∑ v : Fin 16, oh 4294967295#32 v.val * f v = 0 := by
  simp only [oh_neg1, zero_mul, Finset.sum_const_zero]

/-! ## In-range words: the dinucleotide class, the wrap and the clamp -/

/-- Two token words in 0..7 have a dinucleotide word in 0..15. -/
theorem dinucWord_inrange : ∀ a b : Fin 8, ∃ d : Fin 16,
    dinucWord (BitVec.ofNat 32 a.val) (BitVec.ofNat 32 b.val) = BitVec.ofNat 32 d.val := by
  decide

/-- A token word in 0..7 names its own row of the 8-row table. -/
theorem rowOf8 : ∀ t : Fin 8, rowOf 8 (by decide) (wrapW 8#32 (BitVec.ofNat 32 t.val)) = t := by
  decide

/-- A dinucleotide word in 0..15 names its own row of the 16-row table. -/
theorem rowOf16 : ∀ d : Fin 16, rowOf 16 (by decide) (wrapW 16#32 (BitVec.ofNat 32 d.val)) = d := by
  decide

/-! ## The 960 features split -/

/-- A sum over the 960 features is the sum over the first 768 plus the sum over the last 192. -/
theorem sum_960 (f : Fin 960 → EReal) :
    ∑ k : Fin 960, f k
      = ∑ i : Fin 768, f ⟨i.val, by have := i.isLt; omega⟩ + ∑ j : Fin 192, f ⟨768 + j.val, by have := j.isLt; omega⟩ := by
  have h := Fin.sum_univ_add (M := EReal) (a := 768) (b := 192) f
  exact h

/-! ## The two pre-activation rows agree on in-range token words -/

theorem row_eq (ids : Fin 32 → Fin 2048 → BitVec 32) (temb : Fin 8 → Fin 768 → EReal) (demb : Fin 16 → Fin 192 → EReal)
    (W : Fin 768 → Fin 960 → EReal) (bias : Fin 768 → EReal)
    (hids : ∀ b s, ∃ t : Fin 8, ids b s = BitVec.ofNat 32 t.val) (b : Fin 32) (s : Fin 2048) :
    xK (ids b s) (dword ids b s) (tokP temb W) (dinQ demb W) bias = xR (refCat ids temb demb b s) W bias := by
  funext o
  obtain ⟨t, ht⟩ := hids b s
  show (∑ v : Fin 8, oh (ids b s) v.val * tokP temb W v o + ∑ d : Fin 16, oh (dword ids b s) d.val * dinQ demb W d o) + bias o
      = (∑ k : Fin 960, refCat ids temb demb b s k * W o k) + bias o
  rw [sum_960]
  congr 2
  · -- the token half
    rw [ht, oh_sum8 t (fun v => tokP temb W v o)]
    show ∑ i : Fin 768, temb t i * W o ⟨i.val, _⟩ = _
    refine Finset.sum_congr rfl fun i _ => ?_
    have hk : (⟨i.val, by have := i.isLt; omega⟩ : Fin 960).val < 768 := i.isLt
    have : refCat ids temb demb b s ⟨i.val, by have := i.isLt; omega⟩ = temb t i := by
      unfold refCat
      rw [dif_pos hk, ht, rowOf8 t]
    rw [this]
  · -- the dinucleotide half
    by_cases hs : s.val < 2047
    · obtain ⟨ta, hta⟩ := hids b ⟨s.val, by omega⟩
      obtain ⟨tb, htb⟩ := hids b ⟨s.val + 1, by omega⟩
      obtain ⟨d, hd⟩ := dinucWord_inrange ta tb
      have hw : dword ids b s = BitVec.ofNat 32 d.val := by
        unfold dword; rw [dif_pos hs, hta, htb, hd]
      rw [hw, oh_sum16 d (fun d' => dinQ demb W d' o)]
      show ∑ j : Fin 192, demb d j * W o ⟨768 + j.val, _⟩ = _
      refine Finset.sum_congr rfl fun j _ => ?_
      have hk : ¬ (⟨768 + j.val, by have := j.isLt; omega⟩ : Fin 960).val < 768 := by simp
      have : refCat ids temb demb b s ⟨768 + j.val, by have := j.isLt; omega⟩ = demb d j := by
        unfold refCat
        rw [dif_neg hk, dif_pos hs, hta, htb, hd, rowOf16 d]
        congr 1
        apply Fin.ext
        show 768 + j.val - 768 = j.val
        omega
      rw [this]
    · have hw : dword ids b s = 4294967295#32 := by unfold dword; rw [dif_neg hs]
      rw [hw, oh_sum_neg1]
      symm
      refine Finset.sum_eq_zero fun j _ => ?_
      have hk : ¬ (⟨768 + j.val, by have := j.isLt; omega⟩ : Fin 960).val < 768 := by simp
      have : refCat ids temb demb b s ⟨768 + j.val, by have := j.isLt; omega⟩ = 0 := by
        unfold refCat
        rw [dif_neg hk, dif_neg hs]
      rw [this, zero_mul]

/-- The concatenated-feature row of real tables is real. -/
theorem xR_real (ids : Fin 32 → Fin 2048 → BitVec 32) (temb : Fin 8 → Fin 768 → EReal) (demb : Fin 16 → Fin 192 → EReal)
    (W : Fin 768 → Fin 960 → EReal) (bias : Fin 768 → EReal)
    (ht : ∀ v i, IsReal (temb v i)) (hd : ∀ d j, IsReal (demb d j)) (hW : ∀ o k, IsReal (W o k)) (hb : ∀ o, IsReal (bias o))
    (b : Fin 32) (s : Fin 2048) (o : Fin 768) : IsReal (xR (refCat ids temb demb b s) W bias o) := by
  unfold xR
  refine (IsReal.sum _ _ fun k _ => IsReal.mul ?_ (hW o k)).add (hb o)
  unfold refCat
  split_ifs
  · exact ht _ _
  · exact hd _ _
  · exact IsReal.zero

/-- The whole result, in the one-hot reciprocal-square-root spelling, is the row-read quotient spelling at every
    position, when every token word is in 0..7 and the tables, W and the bias are real. -/
theorem G_apply (ids : Fin 32 → Fin 2048 → BitVec 32) (temb : Fin 8 → Fin 768 → EReal) (demb : Fin 16 → Fin 192 → EReal)
    (W : Fin 768 → Fin 960 → EReal) (bias g bt : Fin 768 → EReal)
    (hids : ∀ b s, ∃ t : Fin 8, ids b s = BitVec.ofNat 32 t.val)
    (ht : ∀ v i, IsReal (temb v i)) (hd : ∀ d j, IsReal (demb d j)) (hW : ∀ o k, IsReal (W o k)) (hb : ∀ o, IsReal (bias o))
    (b : Fin 32) (s : Fin 2048) (o : Fin 768) :
    G ids temb demb W bias g bt (ValueIdx.ix3 b s o) = lnR (xR (refCat ids temb demb b s) W bias) g bt o := by
  show lnK (xK (ids b s) (dword ids b s) (tokP temb W) (dinQ demb W) bias) g bt o = _
  rw [row_eq ids temb demb W bias hids b s]
  exact lnK_eq_lnR _ g bt (fun k => xR_real ids temb demb W bias ht hd hW hb b s k) o

end Cert.Spec

end
-- ==== Proof.PreFacts.lean ====
/-
  What the precondition says of the argument arrays: every token word is one of 0..7, and every entry of the two
  embedding tables, of W and of the bias is a real number.
-/
import proofs.«410812_j5111011082276_2_alg».proof.Pre_finite_inputs
import proofs.«410812_j5111011082276_2_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- The f32 pattern 0x7F800000 denotes +∞. -/
theorem inf_bits : Ideal.ofBits .f32 0x7F800000#32 = (⊤ : EReal) := by
  simp [Ideal.ofBits, Ideal.ieee]

/-- An extended real whose absolute value max x (-x) is below +∞ is a real number: both x < +∞ and -x < +∞, so x is
    neither infinity. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : max x (-x) < (⊤ : EReal) := by
    have e : Ideal.cmp .olt (max x (-x)) (Ideal.ofBits .f32 0x7F800000#32) = 1#1 := h
    rw [inf_bits] at e
    simp only [Ideal.cmp, StableHlo.Predicate.ofBool_eq_one_iff, decide_eq_true_eq] at e
    exact e
  induction x using EReal.rec with
  | bot => simp at h'
  | coe r => exact ⟨r, rfl⟩
  | top => simp at h'

/-- A 32-bit word w with 0 ≤ w and w < 8, both signed, is one of the eight words 0..7. -/
theorem word_of_range (w : BitVec 32) (h0 : IntOp.cmpi .sge w 0#32 = 1#1) (h8 : IntOp.cmpi .slt w 8#32 = 1#1) :
    ∃ t : Fin 8, w = BitVec.ofNat 32 t.val := by
  rw [IntOp.cmpi_sge] at h0
  rw [IntOp.cmpi_slt] at h8
  have e0 : (0#32 : BitVec 32).toInt = 0 := by decide
  have e8 : (8#32 : BitVec 32).toInt = 8 := by decide
  rw [e0] at h0
  rw [e8] at h8
  have hlt := w.isLt
  have hn : w.toNat < 8 := by
    rw [BitVec.toInt_eq_toNat_cond] at h0 h8
    split at h0 <;> omega
  refine ⟨⟨w.toNat, hn⟩, ?_⟩
  apply BitVec.eq_of_toNat_eq
  rw [BitVec.toNat_ofNat]
  exact (Nat.mod_eq_of_lt (by omega)).symm

/-- The precondition decoded. -/
theorem decode [Cert.Pre_finite_inputs.Facts] (a0 : IVec S32x2048 32) (a1 : FVec Ideal S8x768 .f32) (a2 : FVec Ideal S16x192 .f32)
    (a3 : FVec Ideal S768x960 .f32) (a4 a5 a6 : FVec Ideal S768 .f32)
    (h : Cert.Pre_finite_inputs.fn (F := Ideal) a0 a1 a2 a3 a4 a5 a6 = fun _ => 1#1) :
    (∀ (b : Fin 32) (s : Fin 2048), ∃ t : Fin 8, a0 (ix2 b s) = BitVec.ofNat 32 t.val)
    ∧ (∀ (v : Fin 8) (i : Fin 768), ∃ r : ℝ, a1 (ix2 v i) = (r : EReal))
    ∧ (∀ (d : Fin 16) (j : Fin 192), ∃ r : ℝ, a2 (ix2 d j) = (r : EReal))
    ∧ (∀ (o : Fin 768) (k : Fin 960), ∃ r : ℝ, a3 (ix2 o k) = (r : EReal))
    ∧ (∀ (o : Fin 768), ∃ r : ℝ, a4 (ix1 o) = (r : EReal)) := by
  -- the predicate at its one index: a conjunction of seven "all" reductions
  have e := congrFun h ix0
  dsimp only [Cert.Pre_finite_inputs.fn, fn_part1, fn_part2] at e
  simp only [andi, IntOp.andi_eq_one] at e
  obtain ⟨⟨⟨⟨⟨⟨h1, h2⟩, h3⟩, h4⟩, -⟩, -⟩, h0⟩ := e
  refine ⟨fun b s => ?_, fun v i => ?_, fun d j => ?_, fun o k => ?_, fun o => ?_⟩
  · -- the token word at (b, s): 0 ≤ w and w < 8, signed
    have e := Host.reduce_andi_all _ _ _ _ ix0 h0 (ix2 b s)
    obtain ⟨g0, g8⟩ := IntOp.andi_eq_one.1 e
    exact word_of_range _ g0 g8
  · exact real_of_abs_lt _ (Host.reduce_andi_all _ _ _ _ ix0 h1 (ix2 v i))
  · exact real_of_abs_lt _ (Host.reduce_andi_all _ _ _ _ ix0 h2 (ix2 d j))
  · exact real_of_abs_lt _ (Host.reduce_andi_all _ _ _ _ ix0 h3 (ix2 o k))
  · exact real_of_abs_lt _ (Host.reduce_andi_all _ _ _ _ ix0 h4 (ix1 o))

end Cert.PreFacts

end
-- ==== Proof.KHost.lean ====
/-
  What the host operations before the region leave in the four arrays the region reads besides the arguments: the
  token words and the dinucleotide words laid out as one column of 65536 rows (row n = position (n / 2048, n % 2048)),
  and the two embedding tables projected through the two column ranges of W.
-/
import proofs.«410812_j5111011082276_2_alg».proof.Proof.Gen.KernelIdeal.Frame
import proofs.«410812_j5111011082276_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.KHost

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! ## The argument arrays as launched, as plain functions -/

def ids (c : Dev nD) : Fin 32 → Fin 2048 → BitVec 32 := fun b s => (m ((c : Thread nD τ).loc main_arg0) : S32x2048.Idx → BitVec 32) (ix2 b s)
def temb (c : Dev nD) : Fin 8 → Fin 768 → EReal := fun v i => (m ((c : Thread nD τ).loc main_arg1) : S8x768.Idx → EReal) (ix2 v i)
def demb (c : Dev nD) : Fin 16 → Fin 192 → EReal := fun d j => (m ((c : Thread nD τ).loc main_arg2) : S16x192.Idx → EReal) (ix2 d j)
def Wm (c : Dev nD) : Fin 768 → Fin 960 → EReal := fun o k => (m ((c : Thread nD τ).loc main_arg3) : S768x960.Idx → EReal) (ix2 o k)
def bias (c : Dev nD) : Fin 768 → EReal := fun o => (m ((c : Thread nD τ).loc main_arg4) : S768.Idx → EReal) (ix1 o)
def gam (c : Dev nD) : Fin 768 → EReal := fun o => (m ((c : Thread nD τ).loc main_arg5) : S768.Idx → EReal) (ix1 o)
def bet (c : Dev nD) : Fin 768 → EReal := fun o => (m ((c : Thread nD τ).loc main_arg6) : S768.Idx → EReal) (ix1 o)

/-! ## The operations' composed terms -/

/-- The dinucleotide words of the 2047 neighbouring pairs of each row, as the chain of vector operations. -/
def dinVec (x0 : S32x2048.Idx → BitVec 32) : S32x2047.Idx → BitVec 32 :=
  select
    (andi
      (andi
        (andi
          (cmpi .sge (extractStridedSlice S32x2047 ![0, 0] x0 slices_S32x2048_S32x2047_0_0)
            (broadcastInDim S32x2047 ![] bcast_S_S32x2047 (constantI S_ 32 4#32)))
          (cmpi .sle (extractStridedSlice S32x2047 ![0, 0] x0 slices_S32x2048_S32x2047_0_0)
            (broadcastInDim S32x2047 ![] bcast_S_S32x2047 (constantI S_ 32 7#32))))
        (cmpi .sge (extractStridedSlice S32x2047 ![0, 1] x0 slices_S32x2048_S32x2047_0_1)
          (broadcastInDim S32x2047 ![] bcast_S_S32x2047 (constantI S_ 32 4#32))))
      (cmpi .sle (extractStridedSlice S32x2047 ![0, 1] x0 slices_S32x2048_S32x2047_0_1)
        (broadcastInDim S32x2047 ![] bcast_S_S32x2047 (constantI S_ 32 7#32))))
    (addi
      (muli
        (subi (extractStridedSlice S32x2047 ![0, 0] x0 slices_S32x2048_S32x2047_0_0)
          (broadcastInDim S32x2047 ![] bcast_S_S32x2047 (constantI S_ 32 4#32)))
        (broadcastInDim S32x2047 ![] bcast_S_S32x2047 (constantI S_ 32 4#32)))
      (subi (extractStridedSlice S32x2047 ![0, 1] x0 slices_S32x2048_S32x2047_0_1)
        (broadcastInDim S32x2047 ![] bcast_S_S32x2047 (constantI S_ 32 4#32))))
    (broadcastInDim S32x2047 ![] bcast_S_S32x2047 (id (constantI S_ 32 0#32)))

/-- The dinucleotide words padded on the right of each row by the word −1. -/
def dinPad (x0 : S32x2048.Idx → BitVec 32) : S32x2048.Idx → BitVec 32 :=
  pad S32x2048 ![0, 0] ![0, 1] ![0, 0] (dinVec x0) (id (constantI S_ 32 4294967295#32)) pads_S32x2047_S32x2048_000_010 h_S_

/-! ## What the four arrays hold, as the operations' composed terms of the launch contents -/

theorem e28 (c : Dev nD) : (V m c main_call0_v28 : S65536x1.Idx → BitVec 32)
    = shapeCast S65536x1 (m ((c : Thread nD τ).loc main_arg0) : S32x2048.Idx → BitVec 32) shapeCasts_S32x2048_S65536x1 := by
  show StableHlo.after hostOps0 (fun b => m (c, b)) (Proc.devRef .tc main_call0_v28) = _
  after_results
  rfl

theorem e29 (c : Dev nD) : (V m c main_call0_v29 : S65536x1.Idx → BitVec 32)
    = shapeCast S65536x1 (dinPad (m ((c : Thread nD τ).loc main_arg0) : S32x2048.Idx → BitVec 32)) shapeCasts_S32x2048_S65536x1 := by
  show StableHlo.after hostOps0 (fun b => m (c, b)) (Proc.devRef .tc main_call0_v29) = _
  after_results_simp
  rfl

theorem e26 (c : Dev nD) : (V m c main_call0_v26 : S8x768.Idx → EReal)
    = Host.dotGeneral (F := Ideal) (φ₁ := .f32) (φ₂ := .f32) dot_S8x768_S768x768_S8x768_1_0_0_1_n_n (some .fp32)
        (m ((c : Thread nD τ).loc main_arg1) : FVec Ideal S8x768 .f32)
        (transpose S768x768 [1, 0]
          (extractStridedSlice S768x768 ![0, 0] (m ((c : Thread nD τ).loc main_arg3) : FVec Ideal S768x960 .f32) slices_S768x960_S768x768_0_0)
          transposes_S768x768_S768x768_1_0) := by
  show StableHlo.after hostOps0 (fun b => m (c, b)) (Proc.devRef .tc main_call0_v26) = _
  after_results
  rfl

theorem e27 (c : Dev nD) : (V m c main_call0_v27 : S16x768.Idx → EReal)
    = Host.dotGeneral (F := Ideal) (φ₁ := .f32) (φ₂ := .f32) dot_S16x192_S192x768_S16x768_1_0_0_1_n_n (some .fp32)
        (m ((c : Thread nD τ).loc main_arg2) : FVec Ideal S16x192 .f32)
        (transpose S192x768 [1, 0]
          (extractStridedSlice S768x192 ![0, 768] (m ((c : Thread nD τ).loc main_arg3) : FVec Ideal S768x960 .f32) slices_S768x960_S768x192_0_768)
          transposes_S768x192_S192x768_1_0) := by
  show StableHlo.after hostOps0 (fun b => m (c, b)) (Proc.devRef .tc main_call0_v27) = _
  after_results
  rfl

/-! ## The operations read at an index -/

/-- A row-major reshape of [32, 2048] to one column of 65536 rows: row n is position (n / 2048, n % 2048). -/
theorem col_apply {α : Type} (x : S32x2048.Idx → α) (n : Fin 65536) :
    shapeCast S65536x1 x shapeCasts_S32x2048_S65536x1 (ix2 n (0 : Fin 1))
      = x (ix2 (⟨n.val / 2048, by have := n.isLt; omega⟩ : Fin 32) (⟨n.val % 2048, by omega⟩ : Fin 2048)) := by
  refine shapeCast_apply x shapeCasts_S32x2048_S65536x1 _ _ ?_
  rw [Shape.rowMajor_val_two, Shape.rowMajor_val_two]
  show n.val / 2048 * 2048 + n.val % 2048 = n.val * 1 + 0
  omega

/-- The left neighbour's slice [0:2047] read at (b, s). -/
theorem sliceL_apply {α : Type} (x : S32x2048.Idx → α) (b : Fin 32) (s : Fin 2047) :
    extractStridedSlice S32x2047 ![0, 0] x slices_S32x2048_S32x2047_0_0 (ix2 b s)
      = x (ix2 b (⟨s.val, by have := s.isLt; omega⟩ : Fin 2048)) :=
  extractStridedSlice_apply ![0, 0] x slices_S32x2048_S32x2047_0_0 _ _ (fun a => match a with
    | ⟨0, _⟩ => by show b.val = 0 + b.val; omega
    | ⟨1, _⟩ => by show s.val = 0 + s.val; omega)

/-- The right neighbour's slice [1:2048] read at (b, s). -/
theorem sliceR_apply {α : Type} (x : S32x2048.Idx → α) (b : Fin 32) (s : Fin 2047) :
    extractStridedSlice S32x2047 ![0, 1] x slices_S32x2048_S32x2047_0_1 (ix2 b s)
      = x (ix2 b (⟨s.val + 1, by have := s.isLt; omega⟩ : Fin 2048)) :=
  extractStridedSlice_apply ![0, 1] x slices_S32x2048_S32x2047_0_1 _ _ (fun a => match a with
    | ⟨0, _⟩ => by show b.val = 0 + b.val; omega
    | ⟨1, _⟩ => by show s.val + 1 = 1 + s.val; omega)

/-- A broadcast scalar reads the scalar's one element everywhere. -/
theorem bscal_apply {α : Type} (y : S_.Idx → α) (j : S32x2047.Idx) :
    broadcastInDim S32x2047 ![] bcast_S_S32x2047 y j = y ix0 :=
  broadcastInDim_apply _ bcast_S_S32x2047 y j ix0 (fun a => a.elim0)

/-- The chain of pointwise word operations at an index, over any five operand vectors. -/
theorem chain_apply (E0 E1 B4 B7 B0 : IVec S32x2047 32) (j : S32x2047.Idx) :
    select (andi (andi (andi (cmpi .sge E0 B4) (cmpi .sle E0 B7)) (cmpi .sge E1 B4)) (cmpi .sle E1 B7))
        (addi (muli (subi E0 B4) B4) (subi E1 B4)) B0 j
      = Scalar.select
          (IntOp.andi (IntOp.andi (IntOp.andi (IntOp.cmpi .sge (E0 j) (B4 j)) (IntOp.cmpi .sle (E0 j) (B7 j)))
            (IntOp.cmpi .sge (E1 j) (B4 j))) (IntOp.cmpi .sle (E1 j) (B7 j)))
          (IntOp.addi (IntOp.muli (IntOp.subi (E0 j) (B4 j)) (B4 j)) (IntOp.subi (E1 j) (B4 j)))
          (B0 j) := rfl

/-- The dinucleotide vector at (b, s) is the dinucleotide word of the tokens at s and s + 1. -/
theorem dinVec_apply (x0 : S32x2048.Idx → BitVec 32) (b : Fin 32) (s : Fin 2047) :
    dinVec x0 (ix2 b s)
      = Cert.Spec.dinucWord (x0 (ix2 b (⟨s.val, by have := s.isLt; omega⟩ : Fin 2048)))
          (x0 (ix2 b (⟨s.val + 1, by have := s.isLt; omega⟩ : Fin 2048))) := by
  unfold dinVec
  refine (chain_apply _ _ _ _ _ _).trans ?_
  rw [sliceL_apply, sliceR_apply, bscal_apply, bscal_apply, bscal_apply]
  rfl

/-- The padded dinucleotide words inside the 2047 computed columns. -/
theorem dinPad_apply_lt (x0 : S32x2048.Idx → BitVec 32) (b : Fin 32) (s : Fin 2048) (h : s.val < 2047) :
    dinPad x0 (ix2 b s) = dinVec x0 (ix2 b (⟨s.val, h⟩ : Fin 2047)) := by
  unfold dinPad pad
  have hin : ∀ a : Fin S32x2047.rank,
      (![0, 0] : Fin 2 → Nat) a ≤ ((ix2 b s : S32x2048.Idx) (a.cast pads_S32x2047_S32x2048_000_010.1)).val
        ∧ (((ix2 b s : S32x2048.Idx) (a.cast pads_S32x2047_S32x2048_000_010.1)).val - (![0, 0] : Fin 2 → Nat) a) % ((![0, 0] : Fin 2 → Nat) a + 1) = 0
        ∧ (((ix2 b s : S32x2048.Idx) (a.cast pads_S32x2047_S32x2048_000_010.1)).val - (![0, 0] : Fin 2 → Nat) a) / ((![0, 0] : Fin 2 → Nat) a + 1) < S32x2047.size a :=
    fun a => match a with
      | ⟨0, _⟩ => by
          show 0 ≤ b.val ∧ (b.val - 0) % (0 + 1) = 0 ∧ (b.val - 0) / (0 + 1) < 32
          have := b.isLt; omega
      | ⟨1, _⟩ => by
          show 0 ≤ s.val ∧ (s.val - 0) % (0 + 1) = 0 ∧ (s.val - 0) / (0 + 1) < 2047
          omega
  rw [dif_pos hin]
  refine congrArg (dinVec x0) (funext fun a => Fin.ext ?_)
  match a with
  | ⟨0, _⟩ => show (b.val - 0) / (0 + 1) = b.val; omega
  | ⟨1, _⟩ => show (s.val - 0) / (0 + 1) = s.val; omega

/-- The padded dinucleotide words at the last column: the word −1. -/
theorem dinPad_apply_last (x0 : S32x2048.Idx → BitVec 32) (b : Fin 32) (s : Fin 2048) (h : ¬ s.val < 2047) :
    dinPad x0 (ix2 b s) = 4294967295#32 := by
  unfold dinPad pad
  rw [dif_neg]
  · rfl
  · intro hin
    have h1 := (hin ⟨1, by decide⟩).2.2
    have h1' : (s.val - 0) / (0 + 1) < 2047 := h1
    omega

/-! ## The two contractions read at an index -/

theorem lhs8_0 (i : S8x768.Idx) (q : dot_S8x768_S768x768_S8x768_1_0_0_1_n_n.contr.Idx) :
    (dot_S8x768_S768x768_S8x768_1_0_0_1_n_n.lhsIdx i q 0).val = (i 0).val := by
  unfold DotDims.lhsIdx
  rw [dif_neg (show ¬(0 : Fin S8x768.rank) ∈ dot_S8x768_S768x768_S8x768_1_0_0_1_n_n.lhsBatch by decide), dif_pos (show (0 : Fin S8x768.rank) ∈ dot_S8x768_S768x768_S8x768_1_0_0_1_n_n.lhsNonContracting by decide)]
  rfl
theorem lhs8_1 (i : S8x768.Idx) (q : dot_S8x768_S768x768_S8x768_1_0_0_1_n_n.contr.Idx) :
    (dot_S8x768_S768x768_S8x768_1_0_0_1_n_n.lhsIdx i q 1).val = (q ⟨0, by decide⟩).val :=
  dot_S8x768_S768x768_S8x768_1_0_0_1_n_n.lhsIdx_val_of_single rfl i q
theorem rhs8_0 (i : S8x768.Idx) (q : dot_S8x768_S768x768_S8x768_1_0_0_1_n_n.contr.Idx) :
    (dot_S8x768_S768x768_S8x768_1_0_0_1_n_n.rhsIdx i q 0).val = (q ⟨0, by decide⟩).val :=
  dot_S8x768_S768x768_S8x768_1_0_0_1_n_n.rhsIdx_val_of_single rfl i q
theorem rhs8_1 (i : S8x768.Idx) (q : dot_S8x768_S768x768_S8x768_1_0_0_1_n_n.contr.Idx) :
    (dot_S8x768_S768x768_S8x768_1_0_0_1_n_n.rhsIdx i q 1).val = (i 1).val := by
  unfold DotDims.rhsIdx
  rw [dif_neg (show ¬(1 : Fin S768x768.rank) ∈ dot_S8x768_S768x768_S8x768_1_0_0_1_n_n.rhsBatch by decide), dif_pos (show (1 : Fin S768x768.rank) ∈ dot_S8x768_S768x768_S8x768_1_0_0_1_n_n.rhsNonContracting by decide)]
  rfl

/-- The [8, 768] × [768, 768] contraction at (v, o): the sum over the shared axis. -/
theorem dot8_apply (l : FVec Ideal S8x768 .f32) (r : FVec Ideal S768x768 .f32) (v : Fin 8) (o : Fin 768) :
    Host.dotGeneral (F := Ideal) dot_S8x768_S768x768_S8x768_1_0_0_1_n_n (some .fp32) l r (ix2 v o)
      = ∑ k : Fin 768, l (ix2 v k) * r (ix2 k o) := by
  simp only [Host.dotGeneral]
  rw [Ideal.dotGeneral_apply, ← Equiv.sum_comp (ValueIdx.contrEquiv1 dot_S8x768_S768x768_S8x768_1_0_0_1_n_n 768 rfl rfl).symm]
  refine Finset.sum_congr rfl fun k _ => ?_
  have hk := ValueIdx.contrEquiv1_symm_val dot_S8x768_S768x768_S8x768_1_0_0_1_n_n 768 rfl rfl k
  have el : dot_S8x768_S768x768_S8x768_1_0_0_1_n_n.lhsIdx (ix2 v o) ((ValueIdx.contrEquiv1 dot_S8x768_S768x768_S8x768_1_0_0_1_n_n 768 rfl rfl).symm k) = ix2 v k := funext fun a => Fin.ext (by
    match a with
    | ⟨0, _⟩ => exact lhs8_0 _ _
    | ⟨1, _⟩ => exact (lhs8_1 _ _).trans hk)
  have er : dot_S8x768_S768x768_S8x768_1_0_0_1_n_n.rhsIdx (ix2 v o) ((ValueIdx.contrEquiv1 dot_S8x768_S768x768_S8x768_1_0_0_1_n_n 768 rfl rfl).symm k) = ix2 k o := funext fun a => Fin.ext (by
    match a with
    | ⟨0, _⟩ => exact (rhs8_0 _ _).trans hk
    | ⟨1, _⟩ => exact rhs8_1 _ _)
  rw [el, er]

theorem lhs16_0 (i : S16x768.Idx) (q : dot_S16x192_S192x768_S16x768_1_0_0_1_n_n.contr.Idx) :
    (dot_S16x192_S192x768_S16x768_1_0_0_1_n_n.lhsIdx i q 0).val = (i 0).val := by
  unfold DotDims.lhsIdx
  rw [dif_neg (show ¬(0 : Fin S16x192.rank) ∈ dot_S16x192_S192x768_S16x768_1_0_0_1_n_n.lhsBatch by decide), dif_pos (show (0 : Fin S16x192.rank) ∈ dot_S16x192_S192x768_S16x768_1_0_0_1_n_n.lhsNonContracting by decide)]
  rfl
theorem lhs16_1 (i : S16x768.Idx) (q : dot_S16x192_S192x768_S16x768_1_0_0_1_n_n.contr.Idx) :
    (dot_S16x192_S192x768_S16x768_1_0_0_1_n_n.lhsIdx i q 1).val = (q ⟨0, by decide⟩).val :=
  dot_S16x192_S192x768_S16x768_1_0_0_1_n_n.lhsIdx_val_of_single rfl i q
theorem rhs16_0 (i : S16x768.Idx) (q : dot_S16x192_S192x768_S16x768_1_0_0_1_n_n.contr.Idx) :
    (dot_S16x192_S192x768_S16x768_1_0_0_1_n_n.rhsIdx i q 0).val = (q ⟨0, by decide⟩).val :=
  dot_S16x192_S192x768_S16x768_1_0_0_1_n_n.rhsIdx_val_of_single rfl i q
theorem rhs16_1 (i : S16x768.Idx) (q : dot_S16x192_S192x768_S16x768_1_0_0_1_n_n.contr.Idx) :
    (dot_S16x192_S192x768_S16x768_1_0_0_1_n_n.rhsIdx i q 1).val = (i 1).val := by
  unfold DotDims.rhsIdx
  rw [dif_neg (show ¬(1 : Fin S192x768.rank) ∈ dot_S16x192_S192x768_S16x768_1_0_0_1_n_n.rhsBatch by decide), dif_pos (show (1 : Fin S192x768.rank) ∈ dot_S16x192_S192x768_S16x768_1_0_0_1_n_n.rhsNonContracting by decide)]
  rfl

/-- The [16, 192] × [192, 768] contraction at (d, o): the sum over the shared axis. -/
theorem dot16_apply (l : FVec Ideal S16x192 .f32) (r : FVec Ideal S192x768 .f32) (d : Fin 16) (o : Fin 768) :
    Host.dotGeneral (F := Ideal) dot_S16x192_S192x768_S16x768_1_0_0_1_n_n (some .fp32) l r (ix2 d o)
      = ∑ k : Fin 192, l (ix2 d k) * r (ix2 k o) := by
  simp only [Host.dotGeneral]
  rw [Ideal.dotGeneral_apply, ← Equiv.sum_comp (ValueIdx.contrEquiv1 dot_S16x192_S192x768_S16x768_1_0_0_1_n_n 192 rfl rfl).symm]
  refine Finset.sum_congr rfl fun k _ => ?_
  have hk := ValueIdx.contrEquiv1_symm_val dot_S16x192_S192x768_S16x768_1_0_0_1_n_n 192 rfl rfl k
  have el : dot_S16x192_S192x768_S16x768_1_0_0_1_n_n.lhsIdx (ix2 d o) ((ValueIdx.contrEquiv1 dot_S16x192_S192x768_S16x768_1_0_0_1_n_n 192 rfl rfl).symm k) = ix2 d k := funext fun a => Fin.ext (by
    match a with
    | ⟨0, _⟩ => exact lhs16_0 _ _
    | ⟨1, _⟩ => exact (lhs16_1 _ _).trans hk)
  have er : dot_S16x192_S192x768_S16x768_1_0_0_1_n_n.rhsIdx (ix2 d o) ((ValueIdx.contrEquiv1 dot_S16x192_S192x768_S16x768_1_0_0_1_n_n 192 rfl rfl).symm k) = ix2 k o := funext fun a => Fin.ext (by
    match a with
    | ⟨0, _⟩ => exact (rhs16_0 _ _).trans hk
    | ⟨1, _⟩ => exact rhs16_1 _ _)
  rw [el, er]

/-- The transpose of W's first 768 input columns at (k, o) is W at (o, k). -/
theorem WT8_apply {α : Type} (W : S768x960.Idx → α) (k o : Fin 768) :
    transpose S768x768 [1, 0] (extractStridedSlice S768x768 ![0, 0] W slices_S768x960_S768x768_0_0)
        transposes_S768x768_S768x768_1_0 (ix2 k o)
      = W (ix2 o (⟨k.val, by have := k.isLt; omega⟩ : Fin 960)) := by
  refine (transpose_apply [1, 0] _ transposes_S768x768_S768x768_1_0 (ix2 k o) (ix2 o k) (fun b => match b with
    | ⟨0, _⟩ => rfl
    | ⟨1, _⟩ => rfl)).trans ?_
  exact extractStridedSlice_apply ![0, 0] W slices_S768x960_S768x768_0_0 _ _ (fun a => match a with
    | ⟨0, _⟩ => by show o.val = 0 + o.val; omega
    | ⟨1, _⟩ => by show k.val = 0 + k.val; omega)

/-- The transpose of W's last 192 input columns at (j, o) is W at (o, 768 + j). -/
theorem WT16_apply {α : Type} (W : S768x960.Idx → α) (j : Fin 192) (o : Fin 768) :
    transpose S192x768 [1, 0] (extractStridedSlice S768x192 ![0, 768] W slices_S768x960_S768x192_0_768)
        transposes_S768x192_S192x768_1_0 (ix2 j o)
      = W (ix2 o (⟨768 + j.val, by have := j.isLt; omega⟩ : Fin 960)) := by
  refine (transpose_apply [1, 0] _ transposes_S768x192_S192x768_1_0 (ix2 j o) (ix2 o j) (fun b => match b with
    | ⟨0, _⟩ => rfl
    | ⟨1, _⟩ => rfl)).trans ?_
  exact extractStridedSlice_apply ![0, 768] W slices_S768x960_S768x192_0_768 _ _ (fun a => match a with
    | ⟨0, _⟩ => by show o.val = 0 + o.val; omega
    | ⟨1, _⟩ => by show 768 + j.val = 768 + j.val; omega)

/-! ## The four computed arrays when the region is entered -/

/-- The token words as a column: row n holds the word of position (n / 2048, n % 2048). -/
theorem V_ids (c : Dev nD) (n : Fin 65536) :
    (V m c main_call0_v28 : S65536x1.Idx → BitVec 32) (ix2 n (0 : Fin 1))
      = ids m c ⟨n.val / 2048, by have := n.isLt; omega⟩ ⟨n.val % 2048, by omega⟩ := by
  refine (congrFun (e28 m c) _).trans ?_
  exact col_apply _ n

/-- The dinucleotide words as a column: row n holds the padded dinucleotide word of position (n / 2048, n % 2048). -/
theorem V_dids (c : Dev nD) (n : Fin 65536) :
    (V m c main_call0_v29 : S65536x1.Idx → BitVec 32) (ix2 n (0 : Fin 1))
      = Cert.Spec.dword (ids m c) ⟨n.val / 2048, by have := n.isLt; omega⟩ ⟨n.val % 2048, by omega⟩ := by
  refine (congrFun (e29 m c) _).trans ?_
  refine (col_apply _ n).trans ?_
  unfold Cert.Spec.dword
  split
  · rename_i h
    refine (dinPad_apply_lt _ _ _ h).trans ?_
    exact dinVec_apply _ _ _
  · rename_i h
    exact dinPad_apply_last _ _ _ h

/-- The projected token table. -/
theorem V_tokP (c : Dev nD) (v : Fin 8) (o : Fin 768) :
    (V m c main_call0_v26 : S8x768.Idx → EReal) (ix2 v o) = Cert.Spec.tokP (temb m c) (Wm m c) v o := by
  refine (congrFun (e26 m c) _).trans ?_
  refine (dot8_apply _ _ v o).trans ?_
  unfold Cert.Spec.tokP
  refine Finset.sum_congr rfl fun i _ => ?_
  rw [WT8_apply]
  rfl

/-- The projected dinucleotide table. -/
theorem V_dinQ (c : Dev nD) (d : Fin 16) (o : Fin 768) :
    (V m c main_call0_v27 : S16x768.Idx → EReal) (ix2 d o) = Cert.Spec.dinQ (demb m c) (Wm m c) d o := by
  refine (congrFun (e27 m c) _).trans ?_
  refine (dot16_apply _ _ d o).trans ?_
  unfold Cert.Spec.dinQ
  refine Finset.sum_congr rfl fun j _ => ?_
  rw [WT16_apply]
  rfl

end Cert.KernelIdeal.KHost

end
-- ==== Proof.KBody.lean ====
/-
  One grid point's output block, entry by entry: row r of the block is the layer normalisation (reciprocal-square-root
  spelling) of the row that the one-hot weights of the point's r-th token word and r-th dinucleotide word select from
  the two projected tables, plus the bias.
-/
import proofs.«410812_j5111011082276_2_alg».proof.Proof.Gen.KernelIdeal.Frame
import proofs.«410812_j5111011082276_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KBody

open Idealize.ShloMosaic Idealize.ShloMosaic.ValueIdx Cert.KernelIdeal Cert.KernelIdeal.Gen
open scoped BigOperators

/-! ## Column casts and column broadcasts at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The one-hot weights -/

/-- The comparison of a column of words against the class numbers 0 … n − 1, widened and converted: at (r, v) the
    one-hot weight of row r's word against class v. -/
theorem onehot_apply {n : ℕ} (x : IVec S2048x1 32) (hc : S2048x1.ShapeCasts S2048x1)
    (hb1 : S2048x1.Broadcasts ⟨2, ![2048, n]⟩) (hi : (⟨2, ![1, n]⟩ : Shape).Iotas .tc 32 [1])
    (hb2 : (⟨2, ![1, n]⟩ : Shape).Broadcasts ⟨2, ![2048, n]⟩) (h1 : 1 < 32) (h2 : FTy.bits .bf16 < FTy.bits .f32)
    (r : Fin 2048) (v : Fin n) :
    (truncf .bf16 (sitofp .f32 (extui 32 (cmpi .eq (broadcastTo ⟨2, ![2048, n]⟩ (shapeCast S2048x1 x hc) hb1)
        (broadcastTo ⟨2, ![2048, n]⟩ (iota .tc ⟨2, ![1, n]⟩ 32 [1] hi) hb2)) h1) : FVec Ideal ⟨2, ![2048, n]⟩ .f32) h2
        : FVec Ideal ⟨2, ![2048, n]⟩ .bf16) (ix2 r v)
      = Cert.Spec.oh (x (ix2 r (0 : Fin 1))) v.val := by
  have h5 : broadcastTo ⟨2, ![2048, n]⟩ (shapeCast S2048x1 x hc) hb1 (ix2 r v) = x (ix2 r (0 : Fin 1)) := by
    rw [broadcastTo_a1_ab_apply, shapeCast_self]
  have h6 : broadcastTo ⟨2, ![2048, n]⟩ (iota .tc ⟨2, ![1, n]⟩ 32 [1] hi) hb2 (ix2 r v) = BitVec.ofNat 32 v.val := by
    rw [broadcastTo_1b_ab_apply, iota_single_apply]
    rfl
  show (((BitVec.setWidth 32 (IntOp.cmpi .eq (broadcastTo ⟨2, ![2048, n]⟩ (shapeCast S2048x1 x hc) hb1 (ix2 r v))
    (broadcastTo ⟨2, ![2048, n]⟩ (iota .tc ⟨2, ![1, n]⟩ 32 [1] hi) hb2 (ix2 r v)))).toInt : ℝ) : EReal) = _
  rw [h5, h6]
  rfl

/-! ## The two contractions -/

/-! ### The contraction against the 8-row table -/

/-- The left operand's index at output (i, ·) and contraction coordinate q is (i 0, q); the right operand's is (q, i 1). -/
theorem lhs8_0 (i : S2048x768.Idx) (q : dot_S2048x8_S8x768_S2048x768_1_0_0_1_n_n.contr.Idx) :
    (dot_S2048x8_S8x768_S2048x768_1_0_0_1_n_n.lhsIdx i q 0).val = (i 0).val := by
  unfold DotDims.lhsIdx
  rw [dif_neg (show ¬(0 : Fin S2048x8.rank) ∈ dot_S2048x8_S8x768_S2048x768_1_0_0_1_n_n.lhsBatch by decide), dif_pos (show (0 : Fin S2048x8.rank) ∈ dot_S2048x8_S8x768_S2048x768_1_0_0_1_n_n.lhsNonContracting by decide)]
  rfl
theorem lhs8_1 (i : S2048x768.Idx) (q : dot_S2048x8_S8x768_S2048x768_1_0_0_1_n_n.contr.Idx) :
    (dot_S2048x8_S8x768_S2048x768_1_0_0_1_n_n.lhsIdx i q 1).val = (q ⟨0, by decide⟩).val :=
  dot_S2048x8_S8x768_S2048x768_1_0_0_1_n_n.lhsIdx_val_of_single rfl i q
theorem rhs8_0 (i : S2048x768.Idx) (q : dot_S2048x8_S8x768_S2048x768_1_0_0_1_n_n.contr.Idx) :
    (dot_S2048x8_S8x768_S2048x768_1_0_0_1_n_n.rhsIdx i q 0).val = (q ⟨0, by decide⟩).val :=
  dot_S2048x8_S8x768_S2048x768_1_0_0_1_n_n.rhsIdx_val_of_single rfl i q
theorem rhs8_1 (i : S2048x768.Idx) (q : dot_S2048x8_S8x768_S2048x768_1_0_0_1_n_n.contr.Idx) :
    (dot_S2048x8_S8x768_S2048x768_1_0_0_1_n_n.rhsIdx i q 1).val = (i 1).val := by
  unfold DotDims.rhsIdx
  rw [dif_neg (show ¬(1 : Fin S8x768.rank) ∈ dot_S2048x8_S8x768_S2048x768_1_0_0_1_n_n.rhsBatch by decide), dif_pos (show (1 : Fin S8x768.rank) ∈ dot_S2048x8_S8x768_S2048x768_1_0_0_1_n_n.rhsNonContracting by decide)]
  rfl

/-- The product of a [2048, 8] block and a [8, 768] block into the zero block, at (r, o): Σ_v A[r, v] · B[v, o]. -/
theorem matmul8_apply (A : FVec Ideal S2048x8 .bf16) (B : FVec Ideal S8x768 .bf16) (r : Fin 2048) (o : Fin 768) :
    matmul dot_S2048x8_S8x768_S2048x768_1_0_0_1_n_n none A B (constant (F := Ideal) S2048x768 .f32 0x00000000#32) (ix2 r o)
      = ∑ v : Fin 8, A (ix2 r v) * B (ix2 v o) := by
  simp only [matmul]
  rw [Ideal.matmul_constant_zero_apply, ← Equiv.sum_comp (ValueIdx.contrEquiv1 dot_S2048x8_S8x768_S2048x768_1_0_0_1_n_n 8 rfl rfl).symm]
  refine Finset.sum_congr rfl fun k _ => ?_
  have hk := ValueIdx.contrEquiv1_symm_val dot_S2048x8_S8x768_S2048x768_1_0_0_1_n_n 8 rfl rfl k
  have el : dot_S2048x8_S8x768_S2048x768_1_0_0_1_n_n.lhsIdx (ix2 r o) ((ValueIdx.contrEquiv1 dot_S2048x8_S8x768_S2048x768_1_0_0_1_n_n 8 rfl rfl).symm k) = ix2 r k := funext fun a => Fin.ext (by
    match a with
    | ⟨0, _⟩ => exact lhs8_0 _ _
    | ⟨1, _⟩ => exact (lhs8_1 _ _).trans hk)
  have er : dot_S2048x8_S8x768_S2048x768_1_0_0_1_n_n.rhsIdx (ix2 r o) ((ValueIdx.contrEquiv1 dot_S2048x8_S8x768_S2048x768_1_0_0_1_n_n 8 rfl rfl).symm k) = ix2 k o := funext fun a => Fin.ext (by
    match a with
    | ⟨0, _⟩ => exact (rhs8_0 _ _).trans hk
    | ⟨1, _⟩ => exact rhs8_1 _ _)
  rw [el, er]

/-! ### The contraction against the 16-row table -/

/-- The left operand's index at output (i, ·) and contraction coordinate q is (i 0, q); the right operand's is (q, i 1). -/
theorem lhs16_0 (i : S2048x768.Idx) (q : dot_S2048x16_S16x768_S2048x768_1_0_0_1_n_n.contr.Idx) :
    (dot_S2048x16_S16x768_S2048x768_1_0_0_1_n_n.lhsIdx i q 0).val = (i 0).val := by
  unfold DotDims.lhsIdx
  rw [dif_neg (show ¬(0 : Fin S2048x16.rank) ∈ dot_S2048x16_S16x768_S2048x768_1_0_0_1_n_n.lhsBatch by decide), dif_pos (show (0 : Fin S2048x16.rank) ∈ dot_S2048x16_S16x768_S2048x768_1_0_0_1_n_n.lhsNonContracting by decide)]
  rfl
theorem lhs16_1 (i : S2048x768.Idx) (q : dot_S2048x16_S16x768_S2048x768_1_0_0_1_n_n.contr.Idx) :
    (dot_S2048x16_S16x768_S2048x768_1_0_0_1_n_n.lhsIdx i q 1).val = (q ⟨0, by decide⟩).val :=
  dot_S2048x16_S16x768_S2048x768_1_0_0_1_n_n.lhsIdx_val_of_single rfl i q
theorem rhs16_0 (i : S2048x768.Idx) (q : dot_S2048x16_S16x768_S2048x768_1_0_0_1_n_n.contr.Idx) :
    (dot_S2048x16_S16x768_S2048x768_1_0_0_1_n_n.rhsIdx i q 0).val = (q ⟨0, by decide⟩).val :=
  dot_S2048x16_S16x768_S2048x768_1_0_0_1_n_n.rhsIdx_val_of_single rfl i q
theorem rhs16_1 (i : S2048x768.Idx) (q : dot_S2048x16_S16x768_S2048x768_1_0_0_1_n_n.contr.Idx) :
    (dot_S2048x16_S16x768_S2048x768_1_0_0_1_n_n.rhsIdx i q 1).val = (i 1).val := by
  unfold DotDims.rhsIdx
  rw [dif_neg (show ¬(1 : Fin S16x768.rank) ∈ dot_S2048x16_S16x768_S2048x768_1_0_0_1_n_n.rhsBatch by decide), dif_pos (show (1 : Fin S16x768.rank) ∈ dot_S2048x16_S16x768_S2048x768_1_0_0_1_n_n.rhsNonContracting by decide)]
  rfl

/-- The product of a [2048, 16] block and a [16, 768] block into the zero block, at (r, o): Σ_v A[r, v] · B[v, o]. -/
theorem matmul16_apply (A : FVec Ideal S2048x16 .bf16) (B : FVec Ideal S16x768 .bf16) (r : Fin 2048) (o : Fin 768) :
    matmul dot_S2048x16_S16x768_S2048x768_1_0_0_1_n_n none A B (constant (F := Ideal) S2048x768 .f32 0x00000000#32) (ix2 r o)
      = ∑ v : Fin 16, A (ix2 r v) * B (ix2 v o) := by
  simp only [matmul]
  rw [Ideal.matmul_constant_zero_apply, ← Equiv.sum_comp (ValueIdx.contrEquiv1 dot_S2048x16_S16x768_S2048x768_1_0_0_1_n_n 16 rfl rfl).symm]
  refine Finset.sum_congr rfl fun k _ => ?_
  have hk := ValueIdx.contrEquiv1_symm_val dot_S2048x16_S16x768_S2048x768_1_0_0_1_n_n 16 rfl rfl k
  have el : dot_S2048x16_S16x768_S2048x768_1_0_0_1_n_n.lhsIdx (ix2 r o) ((ValueIdx.contrEquiv1 dot_S2048x16_S16x768_S2048x768_1_0_0_1_n_n 16 rfl rfl).symm k) = ix2 r k := funext fun a => Fin.ext (by
    match a with
    | ⟨0, _⟩ => exact lhs16_0 _ _
    | ⟨1, _⟩ => exact (lhs16_1 _ _).trans hk)
  have er : dot_S2048x16_S16x768_S2048x768_1_0_0_1_n_n.rhsIdx (ix2 r o) ((ValueIdx.contrEquiv1 dot_S2048x16_S16x768_S2048x768_1_0_0_1_n_n 16 rfl rfl).symm k) = ix2 k o := funext fun a => Fin.ext (by
    match a with
    | ⟨0, _⟩ => exact (rhs16_0 _ _).trans hk
    | ⟨1, _⟩ => exact rhs16_1 _ _)
  rw [el, er]

/-! ## The lane sum and the row mean -/

/-- The sum over the 768 lanes of a [2048, 768] block, at row r. -/
theorem rowSum_apply (X : FVec Ideal S2048x768 .f32) (r : Fin 2048) :
    multiReduction (F := Ideal) .add [1] S2048 X 0x00000000#32 reduces_S2048x768_S2048 (.inl rfl) rfl (ix1 r)
      = ∑ k : Fin 768, X (ix2 r k) := by
  refine (Ideal.multiReduction_add_single X 0x00000000#32 reduces_S2048x768_S2048 (.inl rfl) rfl (ix1 r)).trans ?_
  exact Finset.sum_congr rfl fun k _ => congrArg X (funext fun a => Fin.ext (by
    match a with
    | ⟨0, _⟩ => rfl
    | ⟨1, _⟩ => rfl))

/-- The lane sum kept as a column and divided by the splat of 768. -/
def rowMean (X : FVec Ideal S2048x768 .f32) : FVec Ideal S2048x1 .f32 :=
  divf (shapeCast S2048x1 (multiReduction (F := Ideal) .add [1] S2048 X 0x00000000#32 reduces_S2048x768_S2048 (.inl rfl) rfl)
    shapeCasts_S2048_S2048x1) (broadcast S2048x1 (Scalar.ofBits (F := Ideal) .f32 0x44400000#32))

/-- At row r it is the mean of the row. -/
theorem rowMean_apply (X : FVec Ideal S2048x768 .f32) (r : Fin 2048) (u : Fin 1) :
    rowMean X (ix2 r u) = Cert.Spec.mean (fun k => X (ix2 r k)) := by
  unfold rowMean
  rw [divf_apply, shapeCast_a_a1_apply, rowSum_apply]
  rfl

/-! ## The pre-activation block -/

/-- The two one-hot products added, plus the bias row. -/
def pre (x0 x1 : Vec Ideal S2048x1 .i32) (x2 : Vec Ideal S8x768 .f32) (x3 : Vec Ideal S16x768 .f32) (x4 : Vec Ideal S768 .f32) :
    FVec Ideal S2048x768 .f32 :=
  addf (addf
      (matmul dot_S2048x8_S8x768_S2048x768_1_0_0_1_n_n none
        (truncf .bf16 (sitofp .f32 (extui 32 (cmpi .eq (broadcastTo S2048x8 (shapeCast S2048x1 x0 shapeCasts_S2048x1_S2048x1) broadcasts_S2048x1_S2048x8)
          (broadcastTo S2048x8 (iota .tc S1x8 32 [1] iota_S1x8_d1_w32) broadcasts_S1x8_S2048x8)) natLt_1_32) : FVec Ideal S2048x8 .f32) bitsLt_bf16_f32)
        (truncf .bf16 (shapeCast S8x768 x2 shapeCasts_S8x768_S8x768 : FVec Ideal S8x768 .f32) bitsLt_bf16_f32)
        (constant (F := Ideal) S2048x768 .f32 0x00000000#32))
      (matmul dot_S2048x16_S16x768_S2048x768_1_0_0_1_n_n none
        (truncf .bf16 (sitofp .f32 (extui 32 (cmpi .eq (broadcastTo S2048x16 (shapeCast S2048x1 x1 shapeCasts_S2048x1_S2048x1) broadcasts_S2048x1_S2048x16)
          (broadcastTo S2048x16 (iota .tc S1x16 32 [1] iota_S1x16_d1_w32) broadcasts_S1x16_S2048x16)) natLt_1_32) : FVec Ideal S2048x16 .f32) bitsLt_bf16_f32)
        (truncf .bf16 (shapeCast S16x768 x3 shapeCasts_S16x768_S16x768 : FVec Ideal S16x768 .f32) bitsLt_bf16_f32)
        (constant (F := Ideal) S2048x768 .f32 0x00000000#32)))
    (broadcastTo S2048x768 (shapeCast S1x768 x4 shapeCasts_S768_S1x768) broadcasts_S1x768_S2048x768)

/-- At (r, o) it is the row selected by the one-hot weights of row r's two words, plus the bias. -/
theorem pre_apply (x0 x1 : Vec Ideal S2048x1 .i32) (x2 : Vec Ideal S8x768 .f32) (x3 : Vec Ideal S16x768 .f32) (x4 : Vec Ideal S768 .f32)
    (r : Fin 2048) (o : Fin 768) :
    pre x0 x1 x2 x3 x4 (ix2 r o)
      = Cert.Spec.xK (x0 (ix2 r (0 : Fin 1))) (x1 (ix2 r (0 : Fin 1))) (fun v o' => x2 (ix2 v o'))
          (fun d o' => x3 (ix2 d o')) (fun o' => x4 (ix1 o')) o := by
  unfold pre Cert.Spec.xK
  rw [addf_apply, addf_apply, matmul8_apply, matmul16_apply, broadcastTo_1b_ab_apply, shapeCast_a_1a_apply]
  refine congrArg₂ (· + ·) (congrArg₂ (· + ·) (Finset.sum_congr rfl fun v _ => ?_) (Finset.sum_congr rfl fun d _ => ?_)) rfl
  · rw [onehot_apply, truncf_apply, shapeCast_self]
  · rw [onehot_apply, truncf_apply, shapeCast_self]

/-! ## The payloads at an index -/

/-- The centred block is the pre-activation block minus its row means spread over the lanes. -/
theorem pay2_eq (x0 x1 : Vec Ideal S2048x1 .i32) (x2 : Vec Ideal S8x768 .f32) (x3 : Vec Ideal S16x768 .f32) (x4 : Vec Ideal S768 .f32) :
    k0_pay2 (F := Ideal) x0 x1 x2 x3 x4
      = subf (pre x0 x1 x2 x3 x4) (broadcastTo S2048x768 (rowMean (pre x0 x1 x2 x3 x4)) broadcasts_S2048x1_S2048x768) := rfl

/-- The variance column is the row mean of the squared centred block. -/
theorem pay3_eq (x0 x1 : Vec Ideal S2048x1 .i32) (x2 : Vec Ideal S8x768 .f32) (x3 : Vec Ideal S16x768 .f32) (x4 : Vec Ideal S768 .f32) :
    k0_pay3 (F := Ideal) x0 x1 x2 x3 x4
      = rowMean (mulf (k0_pay2 (F := Ideal) x0 x1 x2 x3 x4) (k0_pay2 (F := Ideal) x0 x1 x2 x3 x4)) := rfl

/-- The centred pre-activation at (r, o). -/
theorem pay2_apply (x0 x1 : Vec Ideal S2048x1 .i32) (x2 : Vec Ideal S8x768 .f32) (x3 : Vec Ideal S16x768 .f32) (x4 : Vec Ideal S768 .f32)
    (r : Fin 2048) (o : Fin 768) :
    k0_pay2 (F := Ideal) x0 x1 x2 x3 x4 (ix2 r o)
      = Cert.Spec.cen (Cert.Spec.xK (x0 (ix2 r (0 : Fin 1))) (x1 (ix2 r (0 : Fin 1))) (fun v o' => x2 (ix2 v o'))
          (fun d o' => x3 (ix2 d o')) (fun o' => x4 (ix1 o'))) o := by
  rw [pay2_eq, subf_apply, broadcastTo_a1_ab_apply, rowMean_apply]
  simp only [pre_apply]
  rfl

/-- The variance column at row r. -/
theorem pay3_apply (x0 x1 : Vec Ideal S2048x1 .i32) (x2 : Vec Ideal S8x768 .f32) (x3 : Vec Ideal S16x768 .f32) (x4 : Vec Ideal S768 .f32)
    (r : Fin 2048) (u : Fin 1) :
    k0_pay3 (F := Ideal) x0 x1 x2 x3 x4 (ix2 r u)
      = Cert.Spec.var (Cert.Spec.xK (x0 (ix2 r (0 : Fin 1))) (x1 (ix2 r (0 : Fin 1))) (fun v o' => x2 (ix2 v o'))
          (fun d o' => x3 (ix2 d o')) (fun o' => x4 (ix1 o'))) := by
  rw [pay3_eq, rowMean_apply]
  simp only [mulf_apply, pay2_apply]
  rfl

/-- The offset column. -/
theorem pay4_apply (r : Fin 2048) (u : Fin 1) : (k0_pay4 (F := Ideal)) (ix2 r u) = Cert.Spec.ceps := rfl

/-- The scaled and shifted block at (r, o), from the centred block, the variance column, the offset column, the scale
    row and the shift row. -/
theorem pay1_apply (v36 : FVec Ideal S2048x768 .f32) (v41 v42 : FVec Ideal S2048x1 .f32) (v45 v51 : Vec Ideal S768 .f32)
    (r : Fin 2048) (o : Fin 768) :
    k0_pay1 (F := Ideal) v36 v41 v42 v45 v51 (ix2 r o)
      = v36 (ix2 r o) * (Ideal.rsqrt (v41 (ix2 r (0 : Fin 1)) + v42 (ix2 r (0 : Fin 1))) * v45 (ix1 o)) + v51 (ix1 o) := by
  unfold k0_pay1
  rw [addf_apply, mulf_apply, mulf_apply, broadcastTo_a1_ab_apply, broadcastTo_1b_ab_apply, broadcastTo_1b_ab_apply,
    shapeCast_a_1a_apply, shapeCast_a_1a_apply]
  rfl

/-! ## The stored block -/

/-- The offsets of a whole-block access of rank 2 are zero on every axis. -/
theorem zero2 : (![0, 0] : Fin 2 → Nat) = fun _ => 0 := funext fun a => by fin_cases a <;> rfl
/-- The offsets of a whole-block access of rank 1 are zero on its axis. -/
theorem zero1 : (![0] : Fin 1 → Nat) = fun _ => 0 := funext fun a => by fin_cases a; rfl

/-- The body's stored block at (r, o), from the seven input blocks. -/
theorem out0_7_apply (x0 x1 : Vec Ideal S2048x1 .i32) (x2 : Vec Ideal S8x768 .f32) (x3 : Vec Ideal S16x768 .f32)
    (x4 x5 x6 : Vec Ideal S768 .f32) (r : Fin 2048) (o : Fin 768) :
    out0_7 (F := Ideal) x0 x1 x2 x3 x4 x5 x6 (ix2 r o)
      = Cert.Spec.lnK
          (Cert.Spec.xK (x0 (ix2 r (0 : Fin 1))) (x1 (ix2 r (0 : Fin 1))) (fun v o' => x2 (ix2 v o'))
            (fun d o' => x3 (ix2 d o')) (fun o' => x4 (ix1 o')))
          (fun o' => x5 (ix1 o')) (fun o' => x6 (ix1 o')) o := by
  unfold Gen.out0_7
  rw [View.canon_unit_zero zero2]
  simp only [View.ld_unit_zero (S := S2048x1) zero2, View.ld_unit_zero (S := S8x768) zero2,
    View.ld_unit_zero (S := S16x768) zero2, View.ld_unit_zero (S := S768) zero1]
  rw [pay1_apply, pay2_apply, pay3_apply, pay4_apply]
  rfl

end Cert.KernelIdeal.KBody

end
-- ==== Proof.KArr.lean ====
/-
  From one grid point's block to the whole result. Grid point t (of 32) works on rows 2048·t … 2048·t + 2047 of the
  65536-row column arrays and of the [65536, 768] output; the tables, the bias, the scale and the shift are staged
  whole at every point. So the block a point writes back is the corresponding block of ONE function of the arrays
  the region finds, the 32 blocks tile the output, and the output array ends at that function. The host operation
  after the region lays the 65536 rows out as 32 × 2048 positions: row n is position (n / 2048, n % 2048).
-/
import proofs.«410812_j5111011082276_2_alg».proof.Proof.Gen.KernelIdeal.Frame
import proofs.«410812_j5111011082276_2_alg».proof.Proof.Spec
import proofs.«410812_j5111011082276_2_alg».proof.Proof.KHost
import proofs.«410812_j5111011082276_2_alg».proof.Proof.KBody
import Idealize.ShloMosaic.Lib.Pipeline.Value
import Idealize.ShloMosaic.Lib.StableHlo.Run
import Idealize.ShloMosaic.Lib.Tactic

set_option maxRecDepth 16384

noncomputable section

namespace Cert.KernelIdeal.KArr

open Cert.KernelIdeal Cert.KernelIdeal.Gen Cert.KernelIdeal.KHost
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The grid has 32 points. -/
theorem hN : cfg0.N = 32 := N_0

/-- The index maps over the grid: the two word columns and the output move one block of rows per point, everything
    else stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 2) = t.val ∧ win0_7.index t (1 : Fin 2) = 0 :=
  (by decide +kernel : ∀ t : Fin grid0.N, _)

/-! ## Each input block as entries of the array the region finds -/

/-- Row r of point t's block of the token-word column is row 2048·t + r of the column. -/
theorem iblk0_apply (c : Dev nD) (t : Fin cfg0.N) (r : Fin 2048) :
    (iblk m c 0 t : Vec Ideal S2048x1 .i32) (ix2 r (0 : Fin 1))
      = (V m c main_call0_v28 : S65536x1.Idx → BitVec 32)
          (ix2 (⟨t.val * 2048 + r.val, by have := t.isLt; have := hN; omega⟩ : Fin 65536) (0 : Fin 1)) := by
  obtain ⟨e0, e1, -⟩ := idx_facts t
  unfold iblk
  rw [View.read_apply]
  refine congrArg (V m c main_call0_v28 : S65536x1.Idx → BitVec 32) (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 1 + 1 * 0 = 0; rw [e1]

/-- Row r of point t's block of the dinucleotide-word column is row 2048·t + r of the column. -/
theorem iblk1_apply (c : Dev nD) (t : Fin cfg0.N) (r : Fin 2048) :
    (iblk m c 1 t : Vec Ideal S2048x1 .i32) (ix2 r (0 : Fin 1))
      = (V m c main_call0_v29 : S65536x1.Idx → BitVec 32)
          (ix2 (⟨t.val * 2048 + r.val, by have := t.isLt; have := hN; omega⟩ : Fin 65536) (0 : Fin 1)) := by
  obtain ⟨-, -, e0, e1, -⟩ := idx_facts t
  unfold iblk
  rw [View.read_apply]
  refine congrArg (V m c main_call0_v29 : S65536x1.Idx → BitVec 32) (funext fun a => Fin.ext ?_)
  match a with
  | ⟨0, _⟩ => show win0_1.index t (0 : Fin 2) * 2048 + 1 * r.val = t.val * 2048 + r.val; rw [e0]; omega
  | ⟨1, _⟩ => show win0_1.index t (1 : Fin 2) * 1 + 1 * 0 = 0; rw [e1]

/-- The projected token table is staged whole. -/
theorem iblk2_apply (c : Dev nD) (t : Fin cfg0.N) (v : Fin 8) (o : Fin 768) :
    (iblk m c 2 t : Vec Ideal S8x768 .f32) (ix2 v o) = (V m c main_call0_v26 : S8x768.Idx → EReal) (ix2 v o) := by
  obtain ⟨-, -, -, -, e0, e1, -⟩ := idx_facts t
  unfold iblk
  rw [View.read_apply]
  refine congrArg (V m c main_call0_v26 : S8x768.Idx → EReal) (funext fun a => Fin.ext ?_)
  match a with
  | ⟨0, _⟩ => show win0_2.index t (0 : Fin 2) * 8 + 1 * v.val = v.val; rw [e0]; omega
  | ⟨1, _⟩ => show win0_2.index t (1 : Fin 2) * 768 + 1 * o.val = o.val; rw [e1]; omega

/-- The projected dinucleotide table is staged whole. -/
theorem iblk3_apply (c : Dev nD) (t : Fin cfg0.N) (d : Fin 16) (o : Fin 768) :
    (iblk m c 3 t : Vec Ideal S16x768 .f32) (ix2 d o) = (V m c main_call0_v27 : S16x768.Idx → EReal) (ix2 d o) := by
  obtain ⟨-, -, -, -, -, -, e0, e1, -⟩ := idx_facts t
  unfold iblk
  rw [View.read_apply]
  refine congrArg (V m c main_call0_v27 : S16x768.Idx → EReal) (funext fun a => Fin.ext ?_)
  match a with
  | ⟨0, _⟩ => show win0_3.index t (0 : Fin 2) * 16 + 1 * d.val = d.val; rw [e0]; omega
  | ⟨1, _⟩ => show win0_3.index t (1 : Fin 2) * 768 + 1 * o.val = o.val; rw [e1]; omega

/-- The bias is staged whole, and no host operation before the region writes it. -/
theorem iblk4_apply (c : Dev nD) (t : Fin cfg0.N) (o : Fin 768) :
    (iblk m c 4 t : Vec Ideal S768 .f32) (ix1 o) = bias m c o := by
  obtain ⟨-, -, -, -, -, -, -, -, e0, -⟩ := idx_facts t
  unfold iblk
  rw [View.read_apply]
  show (V m c main_arg4 : S768.Idx → EReal) _ = _
  rw [V_main_arg4 m c]
  refine congrArg (m ((c : Thread nD τ).loc main_arg4) : S768.Idx → EReal) (funext fun a => Fin.ext ?_)
  match a with
  | ⟨0, _⟩ => show win0_4.index t (0 : Fin 1) * 768 + 1 * o.val = o.val; rw [e0]; omega

/-- The scale is staged whole, and no host operation before the region writes it. -/
theorem iblk5_apply (c : Dev nD) (t : Fin cfg0.N) (o : Fin 768) :
    (iblk m c 5 t : Vec Ideal S768 .f32) (ix1 o) = gam m c o := by
  obtain ⟨-, -, -, -, -, -, -, -, -, e0, -⟩ := idx_facts t
  unfold iblk
  rw [View.read_apply]
  show (V m c main_arg5 : S768.Idx → EReal) _ = _
  rw [V_main_arg5 m c]
  refine congrArg (m ((c : Thread nD τ).loc main_arg5) : S768.Idx → EReal) (funext fun a => Fin.ext ?_)
  match a with
  | ⟨0, _⟩ => show win0_5.index t (0 : Fin 1) * 768 + 1 * o.val = o.val; rw [e0]; omega

/-- The shift is staged whole, and no host operation before the region writes it. -/
theorem iblk6_apply (c : Dev nD) (t : Fin cfg0.N) (o : Fin 768) :
    (iblk m c 6 t : Vec Ideal S768 .f32) (ix1 o) = bet m c o := by
  obtain ⟨-, -, -, -, -, -, -, -, -, -, e0, -⟩ := idx_facts t
  unfold iblk
  rw [View.read_apply]
  show (V m c main_arg6 : S768.Idx → EReal) _ = _
  rw [V_main_arg6 m c]
  refine congrArg (m ((c : Thread nD τ).loc main_arg6) : S768.Idx → EReal) (funext fun a => Fin.ext ?_)
  match a with
  | ⟨0, _⟩ => show win0_6.index t (0 : Fin 1) * 768 + 1 * o.val = o.val; rw [e0]; omega

/-! ## The output array as one function -/

/-- Row n, column o of the [65536, 768] output: the layer-normalised pre-activation of position (n / 2048, n % 2048). -/
def Garr (c : Dev nD) : S65536x768.Idx → EReal := fun j =>
  Cert.Spec.lnK
    (Cert.Spec.xK
      (ids m c ⟨(j 0).val / 2048, by have h : (j 0).val < 65536 := (j 0).isLt; omega⟩ ⟨(j 0).val % 2048, by omega⟩)
      (Cert.Spec.dword (ids m c) ⟨(j 0).val / 2048, by have h : (j 0).val < 65536 := (j 0).isLt; omega⟩ ⟨(j 0).val % 2048, by omega⟩)
      (Cert.Spec.tokP (temb m c) (Wm m c)) (Cert.Spec.dinQ (demb m c) (Wm m c)) (bias m c))
    (gam m c) (bet m c) ⟨(j 1).val, (j 1).isLt⟩

/-- Entry (r, o) of point t's output block sits at row 2048·t + r, column o of the output. -/
theorem emb7 (t : Fin cfg0.N) (r : Fin 2048) (o : Fin 768) :
    ((cfg0.win 7).blk t).view.emb (ix2 r o)
      = (ix2 (⟨t.val * 2048 + r.val, by have := t.isLt; have := hN; omega⟩ : Fin 65536) o : S65536x768.Idx) := by
  obtain ⟨-, -, -, -, -, -, -, -, -, -, -, e0, e1⟩ := idx_facts t
  funext a
  apply Fin.ext
  match a with
  | ⟨0, _⟩ => show win0_7.index t (0 : Fin 2) * 2048 + 1 * r.val = t.val * 2048 + r.val; rw [e0]; omega
  | ⟨1, _⟩ => show win0_7.index t (1 : Fin 2) * 768 + 1 * o.val = o.val; rw [e1]; omega

/-- What point t writes back is block t of the one function. -/
theorem flushed_eq (c : Dev nD) (t : Fin cfg0.N) :
    (dats m 0 c).flushed 7 t = ((cfg0.win 7).blk t).view.read (Elt Ideal) (Garr m c) := by
  show (cfg0.win 7).cut (grid0.coords t) ((dats m 0 c).after 7 t) = _
  rw [after0_7]
  funext (j : S2048x768.Idx)
  obtain ⟨r, o, rfl⟩ : ∃ (r : Fin 2048) (o : Fin 768), j = ix2 r o := ⟨j 0, j 1, eq_ix2 j⟩
  show out0_7 (F := Ideal) (iblk m c 0 t) (iblk m c 1 t) (iblk m c 2 t) (iblk m c 3 t) (iblk m c 4 t) (iblk m c 5 t) (iblk m c 6 t) (ix2 r o)
      = Garr m c (((cfg0.win 7).blk t).view.emb (ix2 r o))
  refine (Cert.KernelIdeal.KBody.out0_7_apply (iblk m c 0 t) (iblk m c 1 t) (iblk m c 2 t) (iblk m c 3 t) (iblk m c 4 t)
    (iblk m c 5 t) (iblk m c 6 t) r o).trans ?_
  rw [emb7 t r o]
  have h0 := (iblk0_apply m c t r).trans (V_ids m c ⟨t.val * 2048 + r.val, by have := t.isLt; have := hN; omega⟩)
  have h1 := (iblk1_apply m c t r).trans (V_dids m c ⟨t.val * 2048 + r.val, by have := t.isLt; have := hN; omega⟩)
  have h2 : (fun (v : Fin 8) (o' : Fin 768) => (iblk m c 2 t : Vec Ideal S8x768 .f32) (ix2 v o')) = Cert.Spec.tokP (temb m c) (Wm m c) :=
    funext fun v => funext fun o' => (iblk2_apply m c t v o').trans (V_tokP m c v o')
  have h3 : (fun (d : Fin 16) (o' : Fin 768) => (iblk m c 3 t : Vec Ideal S16x768 .f32) (ix2 d o')) = Cert.Spec.dinQ (demb m c) (Wm m c) :=
    funext fun d => funext fun o' => (iblk3_apply m c t d o').trans (V_dinQ m c d o')
  have h4 : (fun (o' : Fin 768) => (iblk m c 4 t : Vec Ideal S768 .f32) (ix1 o')) = bias m c := funext fun o' => iblk4_apply m c t o'
  have h5 : (fun (o' : Fin 768) => (iblk m c 5 t : Vec Ideal S768 .f32) (ix1 o')) = gam m c := funext fun o' => iblk5_apply m c t o'
  have h6 : (fun (o' : Fin 768) => (iblk m c 6 t : Vec Ideal S768 .f32) (ix1 o')) = bet m c := funext fun o' => iblk6_apply m c t o'
  rw [h0, h1, h2, h3, h4, h5, h6]
  rfl

/-! ## The 32 blocks tile the output -/

/-- An index of the output is in point t's block iff each coordinate is in the block's range on its axis. -/
theorem mem_blk7 (t : Fin cfg0.N) (i : S65536x768.Idx) :
    i ∈ ((cfg0.win 7).blk t).view.set ↔ ∀ a : Fin 2, win0_7.index t a * S2048x768.size a ≤ (i a).val
      ∧ (i a).val < win0_7.index t a * S2048x768.size a + S2048x768.size a := by
  show i ∈ ((View.whole main_call0_v30).slice (win0_7.rect t)).set ↔ _
  rw [View.set_slice_whole, Rect.mem_set_unit]
  exact Iff.rfl

/-- Row n of the output lies in the block of point n / 2048. -/
theorem cover7 (i : S65536x768.Idx) :
    ∃ t : Fin cfg0.N, (cfg0.win 7).flush t = true ∧ i ∈ ((cfg0.win 7).blk t).view.set := by
  have hi0 : (i 0).val < 65536 := (i 0).isLt
  have hi1 : (i 1).val < 768 := (i 1).isLt
  obtain ⟨t, ht⟩ : ∃ t : Fin cfg0.N, t.val = (i 0).val / 2048 := ⟨⟨(i 0).val / 2048, by rw [hN]; omega⟩, rfl⟩
  obtain ⟨-, -, -, -, -, -, -, -, -, -, -, e0, e1⟩ := idx_facts t
  refine ⟨t, flush0_7 t, ?_⟩
  rw [mem_blk7]
  intro a
  match a with
  | ⟨0, _⟩ =>
    show win0_7.index t (0 : Fin 2) * 2048 ≤ (i 0).val ∧ (i 0).val < win0_7.index t (0 : Fin 2) * 2048 + 2048
    rw [e0, ht]; omega
  | ⟨1, _⟩ =>
    show win0_7.index t (1 : Fin 2) * 768 ≤ (i 1).val ∧ (i 1).val < win0_7.index t (1 : Fin 2) * 768 + 768
    rw [e1]; omega

/-- The output array after the region is the one function. -/
theorem final7 (c : Dev nD) : (dats m 0 c).arrAt 7 cfg0.N = Garr m c :=
  (dats m 0 c).arrAt_eq_of_cover 7 (Garr m c) (fun t _ => flushed_eq m c t) cover7

/-! ## After the region: the rows laid out as positions -/

/-- After the host operation that follows the region, the result buffer is the output array re-laid as [32, 2048, 768]. -/
theorem tail_buf (c : Dev nD) :
    Pipeline.afterTail₀ cfgs (dats m) 0 (V0 m) [hostOps1] c main_v0
      = (shapeCast S32x2048x768 (Garr m c) shapeCasts_S65536x768_S32x2048x768 : S32x2048x768.Idx → EReal) := by
  have hw := (Pipeline.withArrays_arr spec0 launch0.win.arr_inj c (V0 m c) (fun w => (dats m 0 c).arrAt w cfg0.N) 7).trans (final7 m c)
  unfold Pipeline.afterTail₀
  show StableHlo.after hostOps1 _ (Proc.devRef .tc main_v0) = _
  after_results
  funext i
  exact congrFun (congrArg (fun X => shapeCast S32x2048x768 X shapeCasts_S65536x768_S32x2048x768) hw) i

/-- Position (b, s), output o of the result is row 2048·b + s, column o of the output array. -/
theorem tail_v0 (c : Dev nD) (b : Fin 32) (s : Fin 2048) (o : Fin 768) :
    (Pipeline.afterTail₀ cfgs (dats m) 0 (V0 m) [hostOps1] c main_v0 : S32x2048x768.Idx → EReal) (ix3 b s o)
      = Garr m c (ix2 (⟨b.val * 2048 + s.val, by omega⟩ : Fin 65536) o) := by
  rw [tail_buf m c]
  exact shapeCast_apply (Garr m c) shapeCasts_S65536x768_S32x2048x768 (ix3 b s o)
    (ix2 (⟨b.val * 2048 + s.val, by omega⟩ : Fin 65536) o) (by
      rw [Shape.rowMajor_val_two, Shape.rowMajor_val_three]
      show (b.val * 2048 + s.val) * 768 + o.val = (b.val * 2048 + s.val) * 768 + o.val
      rfl)

/-- Row 2048·b + s of the output array is position (b, s) of the specified result. -/
theorem Garr_row (c : Dev nD) (b : Fin 32) (s : Fin 2048) (o : Fin 768) :
    Garr m c (ix2 (⟨b.val * 2048 + s.val, by omega⟩ : Fin 65536) o)
      = Cert.Spec.G (ids m c) (temb m c) (demb m c) (Wm m c) (bias m c) (gam m c) (bet m c) (ix3 b s o) := by
  have hb : (⟨(b.val * 2048 + s.val) / 2048, by omega⟩ : Fin 32) = b := Fin.ext (by show (b.val * 2048 + s.val) / 2048 = b.val; omega)
  have hs : (⟨(b.val * 2048 + s.val) % 2048, by omega⟩ : Fin 2048) = s := Fin.ext (by show (b.val * 2048 + s.val) % 2048 = s.val; omega)
  show Cert.Spec.lnK
      (Cert.Spec.xK (ids m c ⟨(b.val * 2048 + s.val) / 2048, _⟩ ⟨(b.val * 2048 + s.val) % 2048, _⟩)
        (Cert.Spec.dword (ids m c) ⟨(b.val * 2048 + s.val) / 2048, _⟩ ⟨(b.val * 2048 + s.val) % 2048, _⟩)
        (Cert.Spec.tokP (temb m c) (Wm m c)) (Cert.Spec.dinQ (demb m c) (Wm m c)) (bias m c))
      (gam m c) (bet m c) ⟨o.val, _⟩
    = Cert.Spec.lnK
      (Cert.Spec.xK (ids m c b s) (Cert.Spec.dword (ids m c) b s)
        (Cert.Spec.tokP (temb m c) (Wm m c)) (Cert.Spec.dinQ (demb m c) (Wm m c)) (bias m c))
      (gam m c) (bet m c) o
  rw [hb, hs]

/-- The result buffer after the whole program is the specified result. -/
theorem tail_G (c : Dev nD) :
    Pipeline.afterTail₀ cfgs (dats m) 0 (V0 m) [hostOps1] c main_v0
      = Cert.Spec.G (ids m c) (temb m c) (demb m c) (Wm m c) (bias m c) (gam m c) (bet m c) := by
  funext (j : S32x2048x768.Idx)
  obtain ⟨b, s, o, rfl⟩ : ∃ (b : Fin 32) (s : Fin 2048) (o : Fin 768), j = ix3 b s o := ⟨j 0, j 1, j 2, eq_ix3 j⟩
  exact (tail_v0 m c b s o).trans (Garr_row m c b s o)

/-! ## The run, read -/

/-- Every weakly fair execution of the program ends with the result buffer at the specified result and the seven
    argument arrays as launched. -/
theorem run : θ_run defs (onTc (τ := τ) (main (F := Ideal))) ⟨m, fun _ => 0, ρ⟩ fun r => ∀ c : Dev nD,
      r.2.mem ((c : Thread nD τ).loc main_v0)
        = Cert.Spec.G (ids m c) (temb m c) (demb m c) (Wm m c) (bias m c) (gam m c) (bet m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
      ⟨((h c).2 main_v0 (Pipeline.mem_restRefs_of main_v0 (by decide) (by decide))).trans (tail_G m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.KArr

end
-- ==== Proof.LibGS.lean ====
/-
  General facts about the host's row gather and accumulating row scatter, and about extended reals:
  a finite sum times a non-negative finite factor distributes; the reciprocal square root of a number at least
  one is a non-negative finite number; a row gather reads the table's row at the clamped start index; an update
  that a row scatter lands on an operand element has that element's row as its start index and the same column;
  an in-range word is its own wrap and its own clamp.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import Mathlib.Data.EReal.Operations

noncomputable section

namespace Cert.LibGS

open Idealize.ShloMosaic Idealize.ShloMosaic.ValueIdx
open scoped BigOperators

/-! ## Extended reals -/

/-- A finite sum times a non-negative finite factor distributes. -/
theorem sum_mul_const {ι : Type} [DecidableEq ι] (S : Finset ι) (f : ι → EReal) (D : EReal) (h0 : 0 ≤ D) (ht : D ≠ ⊤) :
    (∑ j ∈ S, f j) * D = ∑ j ∈ S, f j * D := by
  induction S using Finset.induction_on with
  | empty => simp
  | insert a S ha ih =>
    rw [Finset.sum_insert ha, Finset.sum_insert ha, EReal.right_distrib_of_nonneg_of_ne_top h0 ht, ih]

/-- The reciprocal square root of something at least one is a non-negative finite number. -/
theorem rsqrt_bounds (x : EReal) (h : 1 ≤ x) : 0 ≤ Ideal.rsqrt x ∧ Ideal.rsqrt x ≠ ⊤ := by
  induction x using EReal.rec with
  | bot =>
    have hlt : (⊥ : EReal) < 1 := by exact_mod_cast EReal.bot_lt_coe (1 : ℝ)
    exact absurd h (not_le.mpr hlt)
  | top => simp
  | coe r =>
    have hr : (1 : ℝ) ≤ r := by exact_mod_cast h
    have h1 : ¬ r < 0 := by linarith
    have h2 : ¬ r = 0 := by linarith
    rw [Ideal.rsqrt_coe, if_neg h1, if_neg h2]
    refine ⟨?_, EReal.coe_ne_top _⟩
    exact_mod_cast inv_nonneg.mpr (Real.sqrt_nonneg r)

/-! ## The accumulating scatter, unfolded -/

/-- The accumulating scatter at the ideal values: each operand element plus the sum of the updates landing on it. -/
theorem scatterAdd_apply {s si u : Shape} {φ : FTy} {w : Nat} (d : ScatterDims s si u) (x : FVec Ideal s φ) (idx : IVec si w)
    (upd : FVec Ideal u φ) (i : s.Idx) :
    Host.scatterAdd (F := Ideal) d x idx upd i = x i + ∑ j ∈ Finset.univ.filter (fun j => d.resultIdx? j idx = some i), upd j := rfl

/-! ## Lists with one entry -/

/-- Every entry of a one-entry list is that entry. -/
theorem getElem_of_eq_singleton {α : Type} {l : List α} {a : α} (h : l = [a]) (k : Nat) (hk : k < l.length) : l[k] = a := by
  subst h
  have hk0 : k = 0 := by simpa using hk
  subst hk0; rfl

/-! ## The row gather -/

/-- The row gather read at (p, q): for an [N, C] table and an [n, 1] column of start indices (the result's axis 1 the
    offset axis, the table's axis 0 collapsed and named by the start index map, the index vector on axis 1), the table's
    entry at column q of the row that position p's start index names, read signed and clamped into [0, N - 1]. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = []) (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (⟨min (idx (ix2 p (0 : Fin 1))).toInt.toNat (N - 1), by omega⟩ : Fin N) q) := by
  have hb : ∀ a : Fin 2, a ∉ d.operandBatchingDims := by intro a; rw [hob]; exact List.not_mem_nil
  have hbd : d.batchDims = [0] := by
    show Shape.kept _ d.offsetDims = [0]
    rw [hoff]; rfl
  -- the row: the start index of position p, read signed and clamped
  have h0 : (d.operandIdx (ix2 p q) idx (0 : Fin 2)).val = min (idx (ix2 p (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes (0 : Fin 2)) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  -- the column: the result's own column
  have h1 : (d.operandIdx (ix2 p q) idx (1 : Fin 2)).val = q.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start, dif_neg hm,
      Nat.zero_add]
    unfold GatherDims.offCoord
    rw [dif_pos hk, getElem_of_eq_singleton hoff]
    rfl
  unfold Host.gather
  congr 1
  funext a
  apply Fin.ext
  match a with
  | ⟨0, _⟩ => exact h0
  | ⟨1, _⟩ => exact h1

/-! ## Where a row scatter lands -/

/-- Where a row scatter lands: for an [N, C] operand, an [n, 1] column of scatter indices and [n, C] updates (the
    updates' axis 1 the window axis, the operand's axis 0 inserted and named by the scatter map, the index vector on
    axis 1), if update j lands on operand index i then the start index of j's row, read signed, is i's row, and the
    two columns agree. -/
theorem scatter_rows_lands {N n C w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0]) (hivd : d.indexVectorDim = 1)
    (idx : IVec ⟨2, ![n, 1]⟩ w) (j : (⟨2, ![n, C]⟩ : Shape).Idx) (i : (⟨2, ![N, C]⟩ : Shape).Idx) (h : d.resultIdx? j idx = some i) :
    (idx (ix2 (⟨(j 0).val, (j 0).isLt⟩ : Fin n) (0 : Fin 1))).toInt = ((i 0).val : Int) ∧ (j 1).val = (i 1).val := by
  have hsk : d.sKept = [1] := by
    show Shape.kept _ d.insertedWindowDims = [1]
    rw [hins]; rfl
  have hus : d.uScatter = [0] := by
    show Shape.kept _ d.updateWindowDims = [0]
    rw [huw]; rfl
  -- axis 0: the start is the start index of j's row, the window coordinate is zero
  have hw0 : d.window j (0 : Fin 2) = 0 := by
    unfold ScatterDims.window
    rw [dif_neg (by rw [hsk]; simp)]
  have hs0 : d.start j idx (0 : Fin 2) = (idx (ix2 (⟨(j 0).val, (j 0).isLt⟩ : Fin n) (0 : Fin 1))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [getElem_of_eq_singleton hus]
    | ⟨1, _⟩ =>
      unfold ScatterDims.siIdx
      rw [dif_pos (by rw [hivd])]
      apply Fin.ext
      show List.idxOf (0 : Fin 2) d.scatterDimsToOperandDims = 0
      rw [hsd]; simp
  -- axis 1: the start is zero, the window coordinate is j's column
  have hw1 : d.window j (1 : Fin 2) = (j 1).val := by
    have hk : (1 : Fin 2) ∈ d.sKept := by rw [hsk]; exact List.mem_singleton.mpr rfl
    unfold ScatterDims.window
    rw [dif_pos hk, getElem_of_eq_singleton huw]
  have hs1 : d.start j idx (1 : Fin 2) = 0 := by
    unfold ScatterDims.start
    rw [dif_neg (by rw [hsd]; simp)]
  unfold ScatterDims.resultIdx? at h
  split at h
  · rename_i hall
    have hi := Option.some.inj h
    subst hi
    have h0 := hall (0 : Fin 2)
    rw [hs0, hw0] at h0
    constructor
    · show _ = (((d.start j idx (0 : Fin 2) + d.window j (0 : Fin 2)).toNat : Nat) : Int)
      rw [hs0, hw0]
      omega
    · show _ = (d.start j idx (1 : Fin 2) + d.window j (1 : Fin 2)).toNat
      rw [hs1, hw1]
      omega
  · exact absurd h (by simp)

/-! ## In-range words -/

/-- A word that reads non-negative as a signed number is left alone by the wrap "if a < 0 then a + N else a". -/
theorem wrap_of_nonneg (a : BitVec 32) (Nw : BitVec 32) (h : 0 ≤ a.toInt) :
    Scalar.select (IntOp.cmpi .slt a 0#32) (IntOp.addi a Nw) a = a := by
  have hs : a.slt 0#32 = false := by
    simp only [BitVec.slt, BitVec.toInt_zero]
    exact decide_eq_false (by omega)
  have hc : IntOp.cmpi .slt a 0#32 = 0#1 := by
    unfold IntOp.cmpi
    show BitVec.ofBool (a.slt 0#32) = 0#1
    rw [hs]; rfl
  unfold Scalar.select
  rw [hc, if_neg (by decide)]

/-- A word whose signed value is k < N is its own clamp into [0, N - 1]. -/
theorem clamp_of_inrange (a : BitVec 32) (N k : Nat) (hk : a.toInt = (k : Int)) (hkN : k < N) : min a.toInt.toNat (N - 1) = k := by
  rw [hk, Int.toNat_natCast]; omega

/-! ## The two constants -/

/-- The single-precision patterns of zero and of one are the extended reals zero and one. -/
theorem zero_f32 : Ideal.ofBits .f32 0x00000000#32 = 0 := Ideal.ofBits_zero_f32
theorem one_f32 : Ideal.ofBits .f32 0x3F800000#32 = 1 := Ideal.ofBits_one_f32

end Cert.LibGS

end
-- ==== Proof.LibGather3.lean ====
/-
  The host's row gather over a two-axis grid of positions: for an [N, C] table and an [A, B, 1] array of start
  indices, the result [A, B, C] holds at (a, b, q) the table's entry at column q of the row that position (a, b)'s
  start index names, read signed and clamped into [0, N - 1].
-/
import Idealize.ShloMosaic.PureOps.Ideal
import Idealize.ShloMosaic.Lib.ValueIdx
import proofs.«410812_j5111011082276_2_alg».proof.Proof.LibGS

noncomputable section

namespace Cert.LibGather3

open Idealize.ShloMosaic Idealize.ShloMosaic.ValueIdx

/-- The entries of a two-entry list: the first at position zero, the second elsewhere. -/
theorem getElem_of_eq_pair {α : Type} {l : List α} {a b : α} (h : l = [a, b]) (k : Nat) (hk : k < l.length) :
    l[k] = if k = 0 then a else b := by
  subst h
  match k, hk with
  | 0, _ => rfl
  | 1, _ => rfl

/-- The row gather read at (a, b, q): for an [N, C] table and an [A, B, 1] array of start indices (the result's axis 2
    the offset axis, the table's axis 0 collapsed and named by the start index map, the index vector on axis 2), the
    table's entry at column q of the row that position (a, b)'s start index names, read signed and clamped into
    [0, N - 1]. -/
theorem gather_rows3 {α : Type} {N A B C w : Nat} (d : GatherDims ⟨2, ![N, C]⟩ ⟨3, ![A, B, 1]⟩ ⟨3, ![A, B, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![A, B, 1]⟩ w) (a : Fin A) (b : Fin B) (q : Fin C) (hN : 0 < N) :
    Host.gather d x idx (ix3 a b q)
      = x (ix2 (⟨min (idx (ix3 a b (0 : Fin 1))).toInt.toNat (N - 1), by omega⟩ : Fin N) q) := by
  have hb : ∀ e : Fin 2, e ∉ d.operandBatchingDims := by intro e; rw [hob]; exact List.not_mem_nil
  have hbd : d.batchDims = [0, 1] := by
    show Shape.kept _ d.offsetDims = [0, 1]
    rw [hoff]; rfl
  have hsk : d.siKept = [0, 1] := by
    show (List.finRange 3).filter (fun e => decide (e.val ≠ d.indexVectorDim)) = [0, 1]
    rw [hivd]; rfl
  -- the row: the start index of position (a, b), read signed and clamped
  have h0 : (d.operandIdx (ix3 a b q) idx (0 : Fin 2)).val = min (idx (ix3 a b (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes (0 : Fin 2)) = min (idx (ix3 a b 0)).toInt.toNat (N - 1)
    rw [hsl]
    congr 3
    congr 1
    funext e
    match e with
    | ⟨0, _⟩ =>
      unfold GatherDims.siIdx
      rw [dif_neg (by rw [hivd]; simp)]
      unfold GatherDims.siCoord
      apply Fin.ext
      simp only [Fin.val_cast]
      rw [getElem_of_eq_pair hbd, hsk]
      rfl
    | ⟨1, _⟩ =>
      unfold GatherDims.siIdx
      rw [dif_neg (by rw [hivd]; simp)]
      unfold GatherDims.siCoord
      apply Fin.ext
      simp only [Fin.val_cast]
      rw [getElem_of_eq_pair hbd, hsk]
      rfl
    | ⟨2, _⟩ =>
      unfold GatherDims.siIdx
      rw [dif_pos (by rw [hivd])]
      apply Fin.ext
      show List.idxOf (0 : Fin 2) d.startIndexMap = 0
      rw [hsim]; simp
  -- the column: the result's own column
  have h1 : (d.operandIdx (ix3 a b q) idx (1 : Fin 2)).val = q.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start, dif_neg hm,
      Nat.zero_add]
    unfold GatherDims.offCoord
    rw [dif_pos hk, Cert.LibGS.getElem_of_eq_singleton hoff]
    rfl
  unfold Host.gather
  congr 1
  funext e
  apply Fin.ext
  match e with
  | ⟨0, _⟩ => exact h0
  | ⟨1, _⟩ => exact h1

end Cert.LibGather3

end
-- ==== Proof.RRead.lean ====
/-
  The reference's result at position (b, s) and output o: the layer normalisation (quotient spelling) of the 960
  concatenated features of the position contracted against W, plus the bias.

  The features are read stage by stage: the token gather reads the token table at the row the token word names (a
  negative word counted from the end, the result clamped into the table); the dinucleotide gather does the same with
  the class word of the tokens at s and s + 1, for s < 2047; one trailing zero position pads the dinucleotide rows to
  2048 positions; the concatenation puts the 768 token columns before the 192 dinucleotide columns.  The row of 768
  pre-activations is then the contraction of those features against W plus the bias, and the mean, the variance and
  the normalised, scaled and shifted entry are read off it.
-/
import proofs.«410812_j5111011082276_2_alg».proof.Proof.Gen.ReferenceIdeal.Read
import proofs.«410812_j5111011082276_2_alg».proof.Proof.Spec
import proofs.«410812_j5111011082276_2_alg».proof.Proof.LibGS
import proofs.«410812_j5111011082276_2_alg».proof.Proof.LibGather3
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.ReferenceIdeal.RRead

open Idealize.ShloMosaic Idealize.ShloMosaic.ValueIdx Cert.ReferenceIdeal Cert.ReferenceIdeal.Read
open scoped BigOperators

/-! ## The token rows -/

/-- The start index of the token gather at position (b, s): the token word, a negative word counted from the end. -/
theorem tokword_apply (x0 : (⟨S32x2048, .i32⟩ : BufTy).Contents (Elt Ideal)) (b : Fin 32) (s : Fin 2048) :
    val_main_v5 (F := Ideal) x0 (ix3 b s (0 : Fin 1)) = Cert.Spec.wrapW 8#32 (x0 (ix2 b s)) := by
  have e : idx_main_v5 (ix3 b s (0 : Fin 1)) = ix2 b s :=
    funext fun a => Fin.ext (by match a with | ⟨0, _⟩ => rfl | ⟨1, _⟩ => rfl)
  rw [val_main_v5_apply, e, val_main_v4_apply, val_main_v1_apply, val_main_v3_apply, val_main_v0_apply, val_main_v2_apply,
    val_main_c_apply, val_main_c_0_apply]
  rfl

/-- The token gather at (b, s, q): the token table's entry at column q of the row the wrapped token word names. -/
theorem tok_apply (x0 : (⟨S32x2048, .i32⟩ : BufTy).Contents (Elt Ideal)) (x1 : (⟨S8x768, .f32⟩ : BufTy).Contents (Elt Ideal))
    (b : Fin 32) (s : Fin 2048) (q : Fin 768) :
    val_main_v6 (F := Ideal) x0 x1 (ix3 b s q)
      = x1 (ix2 (Cert.Spec.rowOf 8 (by decide) (Cert.Spec.wrapW 8#32 (x0 (ix2 b s)))) q) := by
  unfold val_main_v6
  refine (Cert.LibGather3.gather_rows3 gather_S8x768_S32x2048x1_S32x2048x768_2_0_n_n_0_2_1768 rfl rfl rfl rfl rfl x1
    (val_main_v5 (F := Ideal) x0) b s q (by decide)).trans ?_
  exact congrArg (fun w => x1 (ix2 (Cert.Spec.rowOf 8 (by decide) w) q)) (tokword_apply x0 b s)

/-! ## The dinucleotide rows -/

/-- The start index of the dinucleotide gather at position (b, s), s < 2047: the class word of the tokens at s and
    s + 1, a negative word counted from the end. -/
theorem dinword_apply (x0 : (⟨S32x2048, .i32⟩ : BufTy).Contents (Elt Ideal)) (b : Fin 32) (s : Fin 2047) :
    val_main_v33 (F := Ideal) x0 (ix3 b s (0 : Fin 1))
      = Cert.Spec.wrapW 16#32 (Cert.Spec.dinucWord (x0 (ix2 b (⟨s.val, by have := s.isLt; omega⟩ : Fin 2048)))
          (x0 (ix2 b (⟨s.val + 1, by have := s.isLt; omega⟩ : Fin 2048)))) := by
  have e : idx_main_v33 (ix3 b s (0 : Fin 1)) = ix2 b s :=
    funext fun a => Fin.ext (by match a with | ⟨0, _⟩ => rfl | ⟨1, _⟩ => rfl)
  have e7 : idx_main_v7 (ix2 b s) = ix2 b (⟨s.val, by have := s.isLt; omega⟩ : Fin 2048) :=
    funext fun a => Fin.ext (by match a with | ⟨0, _⟩ => rfl | ⟨1, _⟩ => rfl)
  have e8 : idx_main_v8 (ix2 b s) = ix2 b (⟨s.val + 1, by have := s.isLt; omega⟩ : Fin 2048) :=
    funext fun a => Fin.ext (by
      match a with
      | ⟨0, _⟩ => rfl
      | ⟨1, _⟩ => exact Nat.add_comm 1 s.val)
  rw [val_main_v33_apply, e, val_main_v32_apply, val_main_v29_apply, val_main_v31_apply, val_main_v27_apply,
    val_main_v28_apply, val_main_v30_apply, val_main_c_9_apply, val_main_c_10_apply,
    val_main_call0_v1_apply, val_main_call0_v0_apply, val_main_c_8_apply,
    val_main_v19_apply, val_main_v16_apply, val_main_v13_apply, val_main_v10_apply, val_main_v12_apply, val_main_v15_apply,
    val_main_v18_apply, val_main_v26_apply, val_main_v23_apply, val_main_v21_apply, val_main_v25_apply,
    val_main_v9_apply, val_main_v11_apply, val_main_v14_apply, val_main_v17_apply, val_main_v20_apply, val_main_v22_apply,
    val_main_v24_apply, val_main_c_1_apply, val_main_c_2_apply, val_main_c_3_apply, val_main_c_4_apply, val_main_c_5_apply,
    val_main_c_6_apply, val_main_c_7_apply, val_main_v7_apply, val_main_v8_apply, e7, e8]
  rfl

/-- The dinucleotide gather at (b, s, j), s < 2047: the dinucleotide table's entry at column j of the row the wrapped
    class word names. -/
theorem din_apply (x0 : (⟨S32x2048, .i32⟩ : BufTy).Contents (Elt Ideal)) (x2 : (⟨S16x192, .f32⟩ : BufTy).Contents (Elt Ideal))
    (b : Fin 32) (s : Fin 2047) (j : Fin 192) :
    val_main_v34 (F := Ideal) x0 x2 (ix3 b s j)
      = x2 (ix2 (Cert.Spec.rowOf 16 (by decide) (Cert.Spec.wrapW 16#32
          (Cert.Spec.dinucWord (x0 (ix2 b (⟨s.val, by have := s.isLt; omega⟩ : Fin 2048)))
            (x0 (ix2 b (⟨s.val + 1, by have := s.isLt; omega⟩ : Fin 2048)))))) j) := by
  unfold val_main_v34
  refine (Cert.LibGather3.gather_rows3 gather_S16x192_S32x2047x1_S32x2047x192_2_0_n_n_0_2_1192 rfl rfl rfl rfl rfl x2
    (val_main_v33 (F := Ideal) x0) b s j (by decide)).trans ?_
  exact congrArg (fun w => x2 (ix2 (Cert.Spec.rowOf 16 (by decide) w) j)) (dinword_apply x0 b s)

/-- The dinucleotide rows padded by one trailing position: the gathered row below position 2047, zero at it. -/
theorem padded_apply (x0 : (⟨S32x2048, .i32⟩ : BufTy).Contents (Elt Ideal)) (x2 : (⟨S16x192, .f32⟩ : BufTy).Contents (Elt Ideal))
    (b : Fin 32) (s : Fin 2048) (j : Fin 192) :
    val_main_v35 (F := Ideal) x0 x2 (ix3 b s j)
      = if hs : s.val < 2047 then val_main_v34 (F := Ideal) x0 x2 (ix3 b (⟨s.val, hs⟩ : Fin 2047) j) else 0 := by
  unfold val_main_v35
  by_cases hs : s.val < 2047
  · rw [dif_pos hs]
    exact pad_apply_of_inside _ _ _ _ _ _ _ (ix3 b s j) (ix3 b (⟨s.val, hs⟩ : Fin 2047) j) (fun a => match a with
      | ⟨0, _⟩ => by show b.val = 0 + b.val * (0 + 1); omega
      | ⟨1, _⟩ => by show s.val = 0 + s.val * (0 + 1); omega
      | ⟨2, _⟩ => by show j.val = 0 + j.val * (0 + 1); omega)
  · rw [dif_neg hs]
    refine (pad_apply_of_not_inside _ _ _ _ _ _ _ (ix3 b s j) (1 : Fin 3) (by
      show ¬(0 ≤ s.val ∧ (s.val - 0) % (0 + 1) = 0 ∧ (s.val - 0) / (0 + 1) < 2047)
      omega)).trans ?_
    rw [val_main_call1_v0_apply, val_main_c_11_apply]
    show ((((0#32 : BitVec 32).toInt : ℤ) : ℝ) : EReal) = 0
    simp

/-! ## The 960 concatenated features -/

/-- The concatenation at (b, s, k): the token row below column 768, the padded dinucleotide row from it on. -/
theorem cat_apply (x0 : (⟨S32x2048, .i32⟩ : BufTy).Contents (Elt Ideal)) (x1 : (⟨S8x768, .f32⟩ : BufTy).Contents (Elt Ideal))
    (x2 : (⟨S16x192, .f32⟩ : BufTy).Contents (Elt Ideal)) (b : Fin 32) (s : Fin 2048) (k : Fin 960) :
    val_main_v36 (F := Ideal) x0 x1 x2 (ix3 b s k)
      = Cert.Spec.refCat (fun b' s' => x0 (ix2 b' s')) (fun v i => x1 (ix2 v i)) (fun d j => x2 (ix2 d j)) b s k := by
  unfold val_main_v36 Cert.Spec.refCat
  by_cases hk : k.val < 768
  · rw [dif_pos hk]
    refine (concatenate_pair_apply_left (s₁ := S32x2048x768) (s₂ := S32x2048x192) 2 _ _ _ (ix3 b s k) rfl (ix3 b s (⟨k.val, hk⟩ : Fin 768)) (fun a => match a with
      | ⟨0, _⟩ => rfl
      | ⟨1, _⟩ => rfl
      | ⟨2, _⟩ => rfl)).trans ?_
    exact tok_apply x0 x1 b s ⟨k.val, hk⟩
  · rw [dif_neg hk]
    have hk2 : k.val - 768 < 192 := by have := k.isLt; omega
    refine (concatenate_pair_apply_right (s₁ := S32x2048x768) (s₂ := S32x2048x192) 2 _ _ _ (ix3 b s k) rfl rfl (ix3 b s (⟨k.val - 768, hk2⟩ : Fin 192))
      (fun a => match a with
        | ⟨0, _⟩ => fun _ => rfl
        | ⟨1, _⟩ => fun _ => rfl
        | ⟨2, _⟩ => fun h => absurd rfl h)
      (by show (k.val - 768) + 768 = k.val; omega)).trans ?_
    rw [padded_apply]
    by_cases hs : s.val < 2047
    · rw [dif_pos hs, dif_pos hs]
      exact din_apply x0 x2 b ⟨s.val, hs⟩ ⟨k.val - 768, hk2⟩
    · rw [dif_neg hs, dif_neg hs]

/-! ## The pre-activation row -/

/-- The projection plus the bias at (b, s, o): the 960 features contracted against row o of W, plus the bias. -/
theorem pre_apply (x0 : (⟨S32x2048, .i32⟩ : BufTy).Contents (Elt Ideal)) (x1 : (⟨S8x768, .f32⟩ : BufTy).Contents (Elt Ideal))
    (x2 : (⟨S16x192, .f32⟩ : BufTy).Contents (Elt Ideal)) (x3 : (⟨S768x960, .f32⟩ : BufTy).Contents (Elt Ideal))
    (x4 : (⟨S768, .f32⟩ : BufTy).Contents (Elt Ideal)) (b : Fin 32) (s : Fin 2048) (o : Fin 768) :
    val_main_v40 (F := Ideal) x0 x1 x2 x3 x4 (ix3 b s o)
      = Cert.Spec.xR
          (Cert.Spec.refCat (fun b' s' => x0 (ix2 b' s')) (fun v i => x1 (ix2 v i)) (fun d j => x2 (ix2 d j)) b s)
          (fun o' k => x3 (ix2 o' k)) (fun o' => x4 (ix1 o')) o := by
  have el : ∀ k : Fin 960, lidx_main_v37 (ix3 b s o) k = ix3 b s k := fun k =>
    funext fun a => Fin.ext (by match a with | ⟨0, _⟩ => rfl | ⟨1, _⟩ => rfl | ⟨2, _⟩ => rfl)
  have er : ∀ k : Fin 960, ridx_main_v37 (ix3 b s o) k = ix2 o k := fun k =>
    funext fun a => Fin.ext (by match a with | ⟨0, _⟩ => rfl | ⟨1, _⟩ => rfl)
  have eb : idx_main_v38 (idx_main_v39 (ix3 b s o)) = ix1 o :=
    funext fun a => Fin.ext (by match a with | ⟨0, _⟩ => rfl)
  rw [val_main_v40_apply, val_main_v37_apply, val_main_v39_apply, val_main_v38_apply, eb, Ideal.addf_def]
  unfold Cert.Spec.xR
  refine congrArg (· + x4 (ix1 o)) (Finset.sum_congr rfl fun k _ => ?_)
  rw [el k, er k, cat_apply]

/-! ## The layer normalisation -/

/-- The mean stage at position (b, s): the mean of the pre-activation row. -/
theorem mean_apply (x0 : (⟨S32x2048, .i32⟩ : BufTy).Contents (Elt Ideal)) (x1 : (⟨S8x768, .f32⟩ : BufTy).Contents (Elt Ideal))
    (x2 : (⟨S16x192, .f32⟩ : BufTy).Contents (Elt Ideal)) (x3 : (⟨S768x960, .f32⟩ : BufTy).Contents (Elt Ideal))
    (x4 : (⟨S768, .f32⟩ : BufTy).Contents (Elt Ideal)) (b : Fin 32) (s : Fin 2048) :
    val_main_v44 (F := Ideal) x0 x1 x2 x3 x4 (ix3 b s (0 : Fin 1))
      = Cert.Spec.mean (fun o' => val_main_v40 (F := Ideal) x0 x1 x2 x3 x4 (ix3 b s o')) := by
  have e1 : idx_main_v42 (ix3 b s (0 : Fin 1)) = ix2 b s :=
    funext fun a => Fin.ext (by match a with | ⟨0, _⟩ => rfl | ⟨1, _⟩ => rfl)
  have e2 : ∀ k : Fin 768, idx_main_v41 (ix2 b s) k = ix3 b s k := fun k =>
    funext fun a => Fin.ext (by match a with | ⟨0, _⟩ => rfl | ⟨1, _⟩ => rfl | ⟨2, _⟩ => rfl)
  rw [val_main_v44_apply, val_main_v42_apply, e1, val_main_v41_apply, val_main_v43_apply, val_main_cst_12_apply,
    val_main_cst_apply, Ideal.hostDivf_def, Ideal.ofBits_def, Ideal.ofBits_zero_f32, zero_add]
  unfold Cert.Spec.mean Cert.Spec.c768
  refine congrArg (fun t => Ideal.div t _) (Finset.sum_congr rfl fun k _ => ?_)
  rw [e2 k]

/-- The variance stage at position (b, s): the variance of the pre-activation row. -/
theorem var_apply (x0 : (⟨S32x2048, .i32⟩ : BufTy).Contents (Elt Ideal)) (x1 : (⟨S8x768, .f32⟩ : BufTy).Contents (Elt Ideal))
    (x2 : (⟨S16x192, .f32⟩ : BufTy).Contents (Elt Ideal)) (x3 : (⟨S768x960, .f32⟩ : BufTy).Contents (Elt Ideal))
    (x4 : (⟨S768, .f32⟩ : BufTy).Contents (Elt Ideal)) (b : Fin 32) (s : Fin 2048) :
    val_main_v51 (F := Ideal) x0 x1 x2 x3 x4 (ix3 b s (0 : Fin 1))
      = Cert.Spec.var (fun o' => val_main_v40 (F := Ideal) x0 x1 x2 x3 x4 (ix3 b s o')) := by
  have e1 : idx_main_v49 (ix3 b s (0 : Fin 1)) = ix2 b s :=
    funext fun a => Fin.ext (by match a with | ⟨0, _⟩ => rfl | ⟨1, _⟩ => rfl)
  have e2 : ∀ k : Fin 768, idx_main_v48 (ix2 b s) k = ix3 b s k := fun k =>
    funext fun a => Fin.ext (by match a with | ⟨0, _⟩ => rfl | ⟨1, _⟩ => rfl | ⟨2, _⟩ => rfl)
  have e3 : ∀ k : Fin 768, idx_main_v45 (ix3 b s k) = ix3 b s (0 : Fin 1) := fun k =>
    funext fun a => Fin.ext (by match a with | ⟨0, _⟩ => rfl | ⟨1, _⟩ => rfl | ⟨2, _⟩ => rfl)
  rw [val_main_v51_apply, val_main_v49_apply, e1, val_main_v48_apply, val_main_v50_apply, val_main_cst_14_apply,
    val_main_cst_13_apply, Ideal.hostDivf_def, Ideal.ofBits_def, Ideal.ofBits_zero_f32, zero_add]
  unfold Cert.Spec.var Cert.Spec.mean Cert.Spec.c768
  refine congrArg (fun t => Ideal.div t _) (Finset.sum_congr rfl fun k _ => ?_)
  rw [e2 k, val_main_v47_apply, val_main_v46_apply, val_main_v45_apply, e3 k, mean_apply, Ideal.mulf_def, Ideal.subf_def]
  rfl

/-- The reference's last stage read at (b, s, o). -/
theorem ref_apply (x0 : (⟨S32x2048, .i32⟩ : BufTy).Contents (Elt Ideal)) (x1 : (⟨S8x768, .f32⟩ : BufTy).Contents (Elt Ideal))
    (x2 : (⟨S16x192, .f32⟩ : BufTy).Contents (Elt Ideal)) (x3 : (⟨S768x960, .f32⟩ : BufTy).Contents (Elt Ideal))
    (x4 x5 x6 : (⟨S768, .f32⟩ : BufTy).Contents (Elt Ideal)) (b : Fin 32) (s : Fin 2048) (o : Fin 768) :
    val_main_v64 (F := Ideal) x0 x1 x2 x3 x4 x5 x6 (ix3 b s o)
      = Cert.Spec.lnR
          (Cert.Spec.xR
            (Cert.Spec.refCat (fun b' s' => x0 (ix2 b' s')) (fun v i => x1 (ix2 v i)) (fun d j => x2 (ix2 d j)) b s)
            (fun o' k => x3 (ix2 o' k)) (fun o' => x4 (ix1 o')))
          (fun o' => x5 (ix1 o')) (fun o' => x6 (ix1 o')) o := by
  have hrow : (fun o' => val_main_v40 (F := Ideal) x0 x1 x2 x3 x4 (ix3 b s o'))
      = Cert.Spec.xR
          (Cert.Spec.refCat (fun b' s' => x0 (ix2 b' s')) (fun v i => x1 (ix2 v i)) (fun d j => x2 (ix2 d j)) b s)
          (fun o' k => x3 (ix2 o' k)) (fun o' => x4 (ix1 o')) :=
    funext fun o' => pre_apply x0 x1 x2 x3 x4 b s o'
  have e5 : idx_main_v59 (idx_main_v60 (ix3 b s o)) = ix1 o :=
    funext fun a => Fin.ext (by match a with | ⟨0, _⟩ => rfl)
  have e6 : idx_main_v62 (idx_main_v63 (ix3 b s o)) = ix1 o :=
    funext fun a => Fin.ext (by match a with | ⟨0, _⟩ => rfl)
  have e52 : idx_main_v52 (ix3 b s o) = ix3 b s (0 : Fin 1) :=
    funext fun a => Fin.ext (by match a with | ⟨0, _⟩ => rfl | ⟨1, _⟩ => rfl | ⟨2, _⟩ => rfl)
  have e57 : idx_main_v57 (ix3 b s o) = ix3 b s (0 : Fin 1) :=
    funext fun a => Fin.ext (by match a with | ⟨0, _⟩ => rfl | ⟨1, _⟩ => rfl | ⟨2, _⟩ => rfl)
  rw [← hrow, val_main_v64_apply, val_main_v61_apply, val_main_v58_apply, val_main_v53_apply, val_main_v57_apply, e57,
    val_main_v56_apply, val_main_v55_apply, val_main_v52_apply, e52, val_main_v54_apply, val_main_cst_15_apply,
    val_main_v60_apply, val_main_v59_apply, e5, val_main_v63_apply, val_main_v62_apply, e6,
    mean_apply, var_apply, Ideal.addf_def, Ideal.addf_def, Ideal.mulf_def, Ideal.hostDivf_def, Ideal.subf_def,
    Ideal.hostUnary_sqrt_def, Ideal.ofBits_def]
  rfl

end Cert.ReferenceIdeal.RRead

end
-- ==== Proof.lean ====
/-
  The kernel and its reference compute one function: the layer normalisation, over 768 outputs, of the projected
  token-plus-dinucleotide embedding of each of the 32 × 2048 positions.

  The kernel's program computes the dinucleotide words on the host, projects the two embedding tables through the two
  column ranges of W once, and then, 2048 positions per grid point, selects each position's projected rows by one-hot
  weights, adds the bias and normalises with a reciprocal square root (Proof/KHost, Proof/KBody, Proof/KArr: the
  result buffer ends at Spec.G of the argument arrays). The reference reads each position's table rows at clamped
  indices, concatenates 960 features, contracts them against W in one sum and normalises with a quotient by the
  square root (Proof/RRead). The precondition — every token word in 0..7, the tables, W and the bias real numbers
  (Proof/PreFacts) — makes the two agree (Proof/Algebra): a one-hot weighted sum of table rows is the named row, an
  in-range word is its own wrap and clamp, a sum over the 960 features splits into its two table parts, and on a row
  of reals the square root of (variance + offset) is a positive real, so dividing by it is multiplying by the
  reciprocal square root. The idealization rewrote nothing, so the kernel program read at the extended reals is its
  own idealization.
-/
import proofs.«410812_j5111011082276_2_alg».proof.Defs
import proofs.«410812_j5111011082276_2_alg».proof.Proof.Gen.Kernel
import proofs.«410812_j5111011082276_2_alg».proof.Proof.Gen.Kernel.Skeleton
import proofs.«410812_j5111011082276_2_alg».proof.Proof.Gen.Kernel.Launch
import proofs.«410812_j5111011082276_2_alg».proof.Proof.Gen.Kernel.Points
import proofs.«410812_j5111011082276_2_alg».proof.Proof.Gen.Kernel.Frame
import proofs.«410812_j5111011082276_2_alg».proof.Proof.Gen.KernelIdeal
import proofs.«410812_j5111011082276_2_alg».proof.Proof.Gen.KernelIdeal.Skeleton
import proofs.«410812_j5111011082276_2_alg».proof.Proof.Gen.KernelIdeal.Launch
import proofs.«410812_j5111011082276_2_alg».proof.Proof.Gen.KernelIdeal.Points
import proofs.«410812_j5111011082276_2_alg».proof.Proof.Gen.KernelIdeal.Frame
import proofs.«410812_j5111011082276_2_alg».proof.Proof.Gen.ReferenceIdeal
import proofs.«410812_j5111011082276_2_alg».proof.Proof.Gen.Pre_finite_inputs
import proofs.«410812_j5111011082276_2_alg».proof.Proof.Gen.ReferenceIdeal.Run
import proofs.«410812_j5111011082276_2_alg».proof.Proof.Gen.ReferenceIdeal.Read
import proofs.«410812_j5111011082276_2_alg».proof.Proof.Spec
import proofs.«410812_j5111011082276_2_alg».proof.Proof.Algebra
import proofs.«410812_j5111011082276_2_alg».proof.Proof.PreFacts
import proofs.«410812_j5111011082276_2_alg».proof.Proof.KHost
import proofs.«410812_j5111011082276_2_alg».proof.Proof.KArr
import proofs.«410812_j5111011082276_2_alg».proof.Proof.RRead
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel program as printed runs to the end without a fault and leaves its arguments alone. -/
theorem frame_k : Cert.frame_Kernel := fun m ρ _ => Cert.Kernel.Gen.frame m ρ

/-- So does the kernel program read at the extended reals. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, both programs end with the same result array. -/
theorem algebraic : Cert.algebraic_KernelIdeal_ReferenceIdeal := by
  intro m ρ m' ρ' hpre hagree
  refine ⟨fun c => Cert.Spec.G (Cert.KernelIdeal.KHost.ids m c) (Cert.KernelIdeal.KHost.temb m c) (Cert.KernelIdeal.KHost.demb m c)
    (Cert.KernelIdeal.KHost.Wm m c) (Cert.KernelIdeal.KHost.bias m c) (Cert.KernelIdeal.KHost.gam m c) (Cert.KernelIdeal.KHost.bet m c),
    Cert.KernelIdeal.KArr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨hids, ht, hd, hW, hb⟩ := Cert.PreFacts.decode _ _ _ _ _ _ _ (hpre c)
  rw [Cert.ReferenceIdeal.Read.val_main_v64_eq, a0, a1, a2, a3, a4, a5, a6]
  funext (j : Cert.ReferenceIdeal.S32x2048x768.Idx)
  obtain ⟨b, s, o, rfl⟩ : ∃ (b : Fin 32) (s : Fin 2048) (o : Fin 768), j = ix3 b s o := ⟨j 0, j 1, j 2, eq_ix3 j⟩
  rw [Cert.ReferenceIdeal.RRead.ref_apply]
  exact (Cert.Spec.G_apply (Cert.KernelIdeal.KHost.ids m c) (Cert.KernelIdeal.KHost.temb m c) (Cert.KernelIdeal.KHost.demb m c)
    (Cert.KernelIdeal.KHost.Wm m c) (Cert.KernelIdeal.KHost.bias m c) (Cert.KernelIdeal.KHost.gam m c) (Cert.KernelIdeal.KHost.bet m c)
    hids ht hd hW hb b s o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
